-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x26x128 : Shape := ⟨3, ![4096, 26, 128]⟩
abbrev S_ : Shape := ⟨0, ![]⟩

class Facts : Prop where
  bcast_S_S4096x26x128 : S_.BroadcastsInDim S4096x26x128 (![] : Fin 0 → Fin S4096x26x128.rank)
  reducesTo_S4096x26x128_S_d0_1_2 : S4096x26x128.ReducesTo [0, 1, 2] S_
  h_S_ : 0 < S_.numel

variable [Facts]

def fn {F : FTy → Type} [FloatOps F] (main_arg0 : FVec F S4096x26x128 .f32) : IVec S_ 1 :=
  let main_v0 : FVec F S4096x26x128 .f32 := Host.absf main_arg0
  let main_cst : FVec F S_ .f32 := constant S_ .f32 0x7F800000#32
  let main_v1 : FVec F S4096x26x128 .f32 := broadcastInDim S4096x26x128 ![] bcast_S_S4096x26x128 main_cst
  let main_v2 : IVec S4096x26x128 1 := cmpf .olt main_v0 main_v1
  let main_c : IVec S_ 1 := constantI S_ 1 1#1
  let main_v3 : IVec S_ 1 := (fun x v => Host.reduce IntOp.andi x v reducesTo_S4096x26x128_S_d0_1_2 h_S_) main_v2 main_c
  main_v3
-- ==== Kernel.lean ====
abbrev S4096x26x128 : Shape := ⟨3, ![4096, 26, 128]⟩
abbrev S4096x325 : Shape := ⟨2, ![4096, 325]⟩
abbrev S512x26x128 : Shape := ⟨3, ![512, 26, 128]⟩
abbrev S512x325 : Shape := ⟨2, ![512, 325]⟩
abbrev S128x26x128 : Shape := ⟨3, ![128, 26, 128]⟩
abbrev S128x26x26 : Shape := ⟨3, ![128, 26, 26]⟩
abbrev S128x1x25 : Shape := ⟨3, ![128, 1, 25]⟩
abbrev S128x25 : Shape := ⟨2, ![128, 25]⟩
abbrev S128x1x24 : Shape := ⟨3, ![128, 1, 24]⟩
abbrev S128x24 : Shape := ⟨2, ![128, 24]⟩
abbrev S128x1x23 : Shape := ⟨3, ![128, 1, 23]⟩
abbrev S128x23 : Shape := ⟨2, ![128, 23]⟩
abbrev S128x1x22 : Shape := ⟨3, ![128, 1, 22]⟩
abbrev S128x22 : Shape := ⟨2, ![128, 22]⟩
abbrev S128x1x21 : Shape := ⟨3, ![128, 1, 21]⟩
abbrev S128x21 : Shape := ⟨2, ![128, 21]⟩
abbrev S128x1x20 : Shape := ⟨3, ![128, 1, 20]⟩
abbrev S128x20 : Shape := ⟨2, ![128, 20]⟩
abbrev S128x1x19 : Shape := ⟨3, ![128, 1, 19]⟩
abbrev S128x19 : Shape := ⟨2, ![128, 19]⟩
abbrev S128x1x18 : Shape := ⟨3, ![128, 1, 18]⟩
abbrev S128x18 : Shape := ⟨2, ![128, 18]⟩
abbrev S128x1x17 : Shape := ⟨3, ![128, 1, 17]⟩
abbrev S128x17 : Shape := ⟨2, ![128, 17]⟩
abbrev S128x1x16 : Shape := ⟨3, ![128, 1, 16]⟩
abbrev S128x16 : Shape := ⟨2, ![128, 16]⟩
abbrev S128x1x15 : Shape := ⟨3, ![128, 1, 15]⟩
abbrev S128x15 : Shape := ⟨2, ![128, 15]⟩
abbrev S128x1x14 : Shape := ⟨3, ![128, 1, 14]⟩
abbrev S128x14 : Shape := ⟨2, ![128, 14]⟩
abbrev S128x1x13 : Shape := ⟨3, ![128, 1, 13]⟩
abbrev S128x13 : Shape := ⟨2, ![128, 13]⟩
abbrev S128x1x12 : Shape := ⟨3, ![128, 1, 12]⟩
abbrev S128x12 : Shape := ⟨2, ![128, 12]⟩
abbrev S128x1x11 : Shape := ⟨3, ![128, 1, 11]⟩
abbrev S128x11 : Shape := ⟨2, ![128, 11]⟩
abbrev S128x1x10 : Shape := ⟨3, ![128, 1, 10]⟩
abbrev S128x10 : Shape := ⟨2, ![128, 10]⟩
abbrev S128x1x9 : Shape := ⟨3, ![128, 1, 9]⟩
abbrev S128x9 : Shape := ⟨2, ![128, 9]⟩
abbrev S128x1x8 : Shape := ⟨3, ![128, 1, 8]⟩
abbrev S128x8 : Shape := ⟨2, ![128, 8]⟩
abbrev S128x1x7 : Shape := ⟨3, ![128, 1, 7]⟩
abbrev S128x7 : Shape := ⟨2, ![128, 7]⟩
abbrev S128x1x6 : Shape := ⟨3, ![128, 1, 6]⟩
abbrev S128x6 : Shape := ⟨2, ![128, 6]⟩
abbrev S128x1x5 : Shape := ⟨3, ![128, 1, 5]⟩
abbrev S128x5 : Shape := ⟨2, ![128, 5]⟩
abbrev S128x1x4 : Shape := ⟨3, ![128, 1, 4]⟩
abbrev S128x4 : Shape := ⟨2, ![128, 4]⟩
abbrev S128x1x3 : Shape := ⟨3, ![128, 1, 3]⟩
abbrev S128x3 : Shape := ⟨2, ![128, 3]⟩
abbrev S128x1x2 : Shape := ⟨3, ![128, 1, 2]⟩
abbrev S128x2 : Shape := ⟨2, ![128, 2]⟩
abbrev S128x1x1 : Shape := ⟨3, ![128, 1, 1]⟩
abbrev S128x1 : Shape := ⟨2, ![128, 1]⟩
abbrev S128x325 : Shape := ⟨2, ![128, 325]⟩

abbrev nBuf : Space → Nat
  | .hbm => 2
  | .vmem => 4
  | .smem => 0
  | _ => 0

abbrev bufTy : (tb : Table) → Fin (tcTables nBuf tb) → BufTy
  | .hbm, ⟨0, _⟩ => ⟨S4096x26x128, .f32⟩
  | .hbm, ⟨1, _⟩ => ⟨S4096x325, .f32⟩
  | .local _ .vmem, ⟨0, _⟩ => ⟨S512x26x128, .f32⟩
  | .local _ .vmem, ⟨1, _⟩ => ⟨S512x26x128, .f32⟩
  | .local _ .vmem, ⟨2, _⟩ => ⟨S512x325, .f32⟩
  | .local _ .vmem, ⟨3, _⟩ => ⟨S512x325, .f32⟩
  | _, _ => ⟨S4096x26x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x26x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x325 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x26x128_S128x26x128_0_0_0 : ∀ a, (![0, 0, 0] : Fin 3 → Nat) a + S128x26x128.size a ≤ S512x26x128.size a
  h_S128x26x128 : 0 < S128x26x128.numel
  slices_S128x26x26_o0_0_1_S128x1x25 : S128x26x26.Slices ![0, 0, 1] S128x1x25
  shapeCasts_S128x1x25_S128x25 : S128x1x25.ShapeCasts S128x25
  slices_S128x26x26_o0_1_2_S128x1x24 : S128x26x26.Slices ![0, 1, 2] S128x1x24
  shapeCasts_S128x1x24_S128x24 : S128x1x24.ShapeCasts S128x24
  slices_S128x26x26_o0_2_3_S128x1x23 : S128x26x26.Slices ![0, 2, 3] S128x1x23
  shapeCasts_S128x1x23_S128x23 : S128x1x23.ShapeCasts S128x23
  slices_S128x26x26_o0_3_4_S128x1x22 : S128x26x26.Slices ![0, 3, 4] S128x1x22
  shapeCasts_S128x1x22_S128x22 : S128x1x22.ShapeCasts S128x22
  slices_S128x26x26_o0_4_5_S128x1x21 : S128x26x26.Slices ![0, 4, 5] S128x1x21
  shapeCasts_S128x1x21_S128x21 : S128x1x21.ShapeCasts S128x21
  slices_S128x26x26_o0_5_6_S128x1x20 : S128x26x26.Slices ![0, 5, 6] S128x1x20
  shapeCasts_S128x1x20_S128x20 : S128x1x20.ShapeCasts S128x20
  slices_S128x26x26_o0_6_7_S128x1x19 : S128x26x26.Slices ![0, 6, 7] S128x1x19
  shapeCasts_S128x1x19_S128x19 : S128x1x19.ShapeCasts S128x19
  slices_S128x26x26_o0_7_8_S128x1x18 : S128x26x26.Slices ![0, 7, 8] S128x1x18
  shapeCasts_S128x1x18_S128x18 : S128x1x18.ShapeCasts S128x18
  slices_S128x26x26_o0_8_9_S128x1x17 : S128x26x26.Slices ![0, 8, 9] S128x1x17
  shapeCasts_S128x1x17_S128x17 : S128x1x17.ShapeCasts S128x17
  slices_S128x26x26_o0_9_10_S128x1x16 : S128x26x26.Slices ![0, 9, 10] S128x1x16
  shapeCasts_S128x1x16_S128x16 : S128x1x16.ShapeCasts S128x16
  slices_S128x26x26_o0_10_11_S128x1x15 : S128x26x26.Slices ![0, 10, 11] S128x1x15
  shapeCasts_S128x1x15_S128x15 : S128x1x15.ShapeCasts S128x15
  slices_S128x26x26_o0_11_12_S128x1x14 : S128x26x26.Slices ![0, 11, 12] S128x1x14
  shapeCasts_S128x1x14_S128x14 : S128x1x14.ShapeCasts S128x14
  slices_S128x26x26_o0_12_13_S128x1x13 : S128x26x26.Slices ![0, 12, 13] S128x1x13
  shapeCasts_S128x1x13_S128x13 : S128x1x13.ShapeCasts S128x13
  slices_S128x26x26_o0_13_14_S128x1x12 : S128x26x26.Slices ![0, 13, 14] S128x1x12
  shapeCasts_S128x1x12_S128x12 : S128x1x12.ShapeCasts S128x12
  slices_S128x26x26_o0_14_15_S128x1x11 : S128x26x26.Slices ![0, 14, 15] S128x1x11
  shapeCasts_S128x1x11_S128x11 : S128x1x11.ShapeCasts S128x11
  slices_S128x26x26_o0_15_16_S128x1x10 : S128x26x26.Slices ![0, 15, 16] S128x1x10
  shapeCasts_S128x1x10_S128x10 : S128x1x10.ShapeCasts S128x10
  slices_S128x26x26_o0_16_17_S128x1x9 : S128x26x26.Slices ![0, 16, 17] S128x1x9
  shapeCasts_S128x1x9_S128x9 : S128x1x9.ShapeCasts S128x9
  slices_S128x26x26_o0_17_18_S128x1x8 : S128x26x26.Slices ![0, 17, 18] S128x1x8
  shapeCasts_S128x1x8_S128x8 : S128x1x8.ShapeCasts S128x8
  slices_S128x26x26_o0_18_19_S128x1x7 : S128x26x26.Slices ![0, 18, 19] S128x1x7
  shapeCasts_S128x1x7_S128x7 : S128x1x7.ShapeCasts S128x7
  slices_S128x26x26_o0_19_20_S128x1x6 : S128x26x26.Slices ![0, 19, 20] S128x1x6
  shapeCasts_S128x1x6_S128x6 : S128x1x6.ShapeCasts S128x6
  slices_S128x26x26_o0_20_21_S128x1x5 : S128x26x26.Slices ![0, 20, 21] S128x1x5
  shapeCasts_S128x1x5_S128x5 : S128x1x5.ShapeCasts S128x5
  slices_S128x26x26_o0_21_22_S128x1x4 : S128x26x26.Slices ![0, 21, 22] S128x1x4
  shapeCasts_S128x1x4_S128x4 : S128x1x4.ShapeCasts S128x4
  slices_S128x26x26_o0_22_23_S128x1x3 : S128x26x26.Slices ![0, 22, 23] S128x1x3
  shapeCasts_S128x1x3_S128x3 : S128x1x3.ShapeCasts S128x3
  slices_S128x26x26_o0_23_24_S128x1x2 : S128x26x26.Slices ![0, 23, 24] S128x1x2
  shapeCasts_S128x1x2_S128x2 : S128x1x2.ShapeCasts S128x2
  slices_S128x26x26_o0_24_25_S128x1x1 : S128x26x26.Slices ![0, 24, 25] S128x1x1
  shapeCasts_S128x1x1_S128x1 : S128x1x1.ShapeCasts S128x1
  concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1 : Shape.Concatenates [S128x25, S128x24, S128x23, S128x22, S128x21, S128x20, S128x19, S128x18, S128x17, S128x16, S128x15, S128x14, S128x13, S128x12, S128x11, S128x10, S128x9, S128x8, S128x7, S128x6, S128x5, S128x4, S128x3, S128x2, S128x1] S128x325 1
  inb_S512x325_S128x325_0_0 : ∀ a, (![0, 0] : Fin 2 → Nat) a + S128x325.size a ≤ S512x325.size a
  h_S128x325 : 0 < S128x325.numel
  inb_S512x26x128_S128x26x128_128_0_0 : ∀ a, (![128, 0, 0] : Fin 3 → Nat) a + S128x26x128.size a ≤ S512x26x128.size a
  inb_S512x325_S128x325_128_0 : ∀ a, (![128, 0] : Fin 2 → Nat) a + S128x325.size a ≤ S512x325.size a
  inb_S512x26x128_S128x26x128_256_0_0 : ∀ a, (![256, 0, 0] : Fin 3 → Nat) a + S128x26x128.size a ≤ S512x26x128.size a
  inb_S512x325_S128x325_256_0 : ∀ a, (![256, 0] : Fin 2 → Nat) a + S128x325.size a ≤ S512x325.size a
  inb_S512x26x128_S128x26x128_384_0_0 : ∀ a, (![384, 0, 0] : Fin 3 → Nat) a + S128x26x128.size a ≤ S512x26x128.size a
  inb_S512x325_S128x325_384_0 : ∀ a, (![384, 0] : Fin 2 → Nat) a + S128x325.size a ≤ S512x325.size a
  dot_S128x26x128_S128x26x128_S128x26x26_2_2_1_1_0_0_wf : DotDims.WF S128x26x128 S128x26x128 S128x26x26 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x26x128.size a ≤ S4096x26x128.size a
  hwx0_0 : ∀ i : grid0.Coords, EltTy.bits .f32 = 32 ∨ (Rect.block (s := S4096x26x128) S512x26x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x325.size a ≤ S4096x325.size a
  hwx0_1 : ∀ i : grid0.Coords, EltTy.bits .f32 = 32 ∨ (Rect.block (s := S4096x325) S512x325.size (cc0_transform_1 i) (hinb0_1 i)).WholeWords (EltTy.packing .f32)

variable [Facts₀]

def dot_S128x26x128_S128x26x128_S128x26x26_2_2_1_1_0_0 : DotDims S128x26x128 S128x26x128 S128x26x26 where
  lhsContracting := [2]
  rhsContracting := [2]
  lhsNonContracting := [1]
  rhsNonContracting := [1]
  lhsBatch := [0]
  rhsBatch := [0]
  wf := dot_S128x26x128_S128x26x128_S128x26x26_2_2_1_1_0_0_wf

abbrev win0_0 : Pipeline.Window sig grid0 :=
  Pipeline.Window.ofSpec (Memref.whole main_arg0) S512x26x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x325.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x26x128 : Shape := ⟨3, ![4096, 26, 128]⟩
abbrev S325 : Shape := ⟨1, ![325]⟩
abbrev S_ : Shape := ⟨0, ![]⟩
abbrev S325x1 : Shape := ⟨2, ![325, 1]⟩
abbrev S1 : Shape := ⟨1, ![1]⟩
abbrev S1x1 : Shape := ⟨2, ![1, 1]⟩
abbrev S4096x325x128 : Shape := ⟨3, ![4096, 325, 128]⟩
abbrev S4096x325 : Shape := ⟨2, ![4096, 325]⟩

abbrev nBuf : Space → Nat
  | .hbm => 52
  | .vmem => 0
  | .smem => 0
  | _ => 0

abbrev bufTy : (tb : Table) → Fin (tcTables nBuf tb) → BufTy
  | .hbm, ⟨0, _⟩ => ⟨S4096x26x128, .f32⟩
  | .hbm, ⟨1, _⟩ => ⟨S325, .i32⟩
  | .hbm, ⟨2, _⟩ => ⟨S325, .i32⟩
  | .hbm, ⟨3, _⟩ => ⟨S_, .i32⟩
  | .hbm, ⟨4, _⟩ => ⟨S325, .i32⟩
  | .hbm, ⟨5, _⟩ => ⟨S325, .i1⟩
  | .hbm, ⟨6, _⟩ => ⟨S_, .i32⟩
  | .hbm, ⟨7, _⟩ => ⟨S325, .i32⟩
  | .hbm, ⟨8, _⟩ => ⟨S325, .i32⟩
  | .hbm, ⟨9, _⟩ => ⟨S325, .i32⟩
  | .hbm, ⟨10, _⟩ => ⟨S325x1, .i32⟩
  | .hbm, ⟨11, _⟩ => ⟨S1, .i32⟩
  | .hbm, ⟨12, _⟩ => ⟨S_, .i32⟩
  | .hbm, ⟨13, _⟩ => ⟨S325x1, .i32⟩
  | .hbm, ⟨14, _⟩ => ⟨S325x1, .i1⟩
  | .hbm, ⟨15, _⟩ => ⟨S1x1, .i32⟩
  | .hbm, ⟨16, _⟩ => ⟨S325x1, .i32⟩
  | .hbm, ⟨17, _⟩ => ⟨S325x1, .i1⟩
  | .hbm, ⟨18, _⟩ => ⟨S325x1, .i1⟩
  | .hbm, ⟨19, _⟩ => ⟨S_, .i1⟩
  | .hbm, ⟨20, _⟩ => ⟨S325, .i1⟩
  | .hbm, ⟨21, _⟩ => ⟨S4096x325x128, .f32⟩
  | .hbm, ⟨22, _⟩ => ⟨S4096x325x128, .i1⟩
  | .hbm, ⟨23, _⟩ => ⟨S_, .f32⟩
  | .hbm, ⟨24, _⟩ => ⟨S4096x325x128, .f32⟩
  | .hbm, ⟨25, _⟩ => ⟨S4096x325x128, .f32⟩
  | .hbm, ⟨26, _⟩ => ⟨S_, .i32⟩
  | .hbm, ⟨27, _⟩ => ⟨S325, .i32⟩
  | .hbm, ⟨28, _⟩ => ⟨S325, .i1⟩
  | .hbm, ⟨29, _⟩ => ⟨S_, .i32⟩
  | .hbm, ⟨30, _⟩ => ⟨S325, .i32⟩
  | .hbm, ⟨31, _⟩ => ⟨S325, .i32⟩
  | .hbm, ⟨32, _⟩ => ⟨S325, .i32⟩
  | .hbm, ⟨33, _⟩ => ⟨S325x1, .i32⟩
  | .hbm, ⟨34, _⟩ => ⟨S1, .i32⟩
  | .hbm, ⟨35, _⟩ => ⟨S_, .i32⟩
  | .hbm, ⟨36, _⟩ => ⟨S325x1, .i32⟩
  | .hbm, ⟨37, _⟩ => ⟨S325x1, .i1⟩
  | .hbm, ⟨38, _⟩ => ⟨S1x1, .i32⟩
  | .hbm, ⟨39, _⟩ => ⟨S325x1, .i32⟩
  | .hbm, ⟨40, _⟩ => ⟨S325x1, .i1⟩
  | .hbm, ⟨41, _⟩ => ⟨S325x1, .i1⟩
  | .hbm, ⟨42, _⟩ => ⟨S_, .i1⟩
  | .hbm, ⟨43, _⟩ => ⟨S325, .i1⟩
  | .hbm, ⟨44, _⟩ => ⟨S4096x325x128, .f32⟩
  | .hbm, ⟨45, _⟩ => ⟨S4096x325x128, .i1⟩
  | .hbm, ⟨46, _⟩ => ⟨S_, .f32⟩
  | .hbm, ⟨47, _⟩ => ⟨S4096x325x128, .f32⟩
  | .hbm, ⟨48, _⟩ => ⟨S4096x325x128, .f32⟩
  | .hbm, ⟨49, _⟩ => ⟨S4096x325x128, .f32⟩
  | .hbm, ⟨50, _⟩ => ⟨S_, .f32⟩
  | .hbm, ⟨51, _⟩ => ⟨S4096x325, .f32⟩
  | _, _ => ⟨S4096x26x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩
abbrev main_cst : Ref sig .tc := ⟨.hbm, 50, rfl⟩
abbrev main_v3 : Ref sig .tc := ⟨.hbm, 51, rfl⟩

abbrev nD : Nat := 1
abbrev τ : Topo := Topo.v7x

variable {F : FTy → Type} [FloatOps F]

class Facts₀ : Prop where
  bcast_S_S325 : S_.BroadcastsInDim S325 (![] : Fin 0 → Fin S325.rank)
  bcast_S325_S325x1_0 : S325.BroadcastsInDim S325x1 (![0] : Fin 1 → Fin S325x1.rank)
  bcast_S_S325x1 : S_.BroadcastsInDim S325x1 (![] : Fin 0 → Fin S325x1.rank)
  bcast_S1_S1x1_1 : S1.BroadcastsInDim S1x1 (![1] : Fin 1 → Fin S1x1.rank)
  bcast_S1x1_S325x1_0_1 : S1x1.BroadcastsInDim S325x1 (![0, 1] : Fin 2 → Fin S325x1.rank)
  reducesTo_S325x1_S325_d1 : S325x1.ReducesTo [1] S325
  h_S_ : 0 < S_.numel
  bcast_S325_S4096x325x128_1 : S325.BroadcastsInDim S4096x325x128 (![1] : Fin 1 → Fin S4096x325x128.rank)
  bcast_S_S4096x325x128 : S_.BroadcastsInDim S4096x325x128 (![] : Fin 0 → Fin S4096x325x128.rank)
  reducesTo_S4096x325x128_S4096x325_d2 : S4096x325x128.ReducesTo [2] S4096x325
  gather_S4096x26x128_S325x1_S4096x325x128_02_1_n_n_1_1_40961128_wf : GatherDims.WF S4096x26x128 S325x1 S4096x325x128 [0, 2] [1] [] [1] [] 1 ![4096, 1, 128]

variable [Facts₀]

def gather_S4096x26x128_S325x1_S4096x325x128_02_1_n_n_1_1_40961128 : GatherDims S4096x26x128 S325x1 S4096x325x128 where
  offsetDims := [0, 2]
  collapsedSliceDims := [1]
  operandBatchingDims := []
  startIndicesBatchingDims := []
  startIndexMap := [1]
  indexVectorDim := 1
  sliceSizes := ![4096, 1, 128]
  wf := gather_S4096x26x128_S325x1_S4096x325x128_02_1_n_n_1_1_40961128_wf

class Facts : Prop extends Facts₀ where

variable [Facts]
-- ==== Proof.PairIndex.lean ====
/-
  Pair indexing for the 325 unordered pairs (i, j), i < j, of 26 fields, in row-major order:
  band k (k = 0 … 24) holds the pairs (k, k+1), …, (k, 25), so it has 25 - k columns and starts
  at column bandOff k = 25 + 24 + … + (26 - k) = k (51 - k) / 2.  Column p lies in band
  rowOf p, at position p - bandOff (rowOf p) inside it, and names the pair (rowOf p, colOf p).
  Also here: a band of a [128, 26, 26] array — the slice [all, k, k+1 …] with its unit axis
  dropped — read at one entry.
-/
import Idealize.ShloMosaic.Lib.Pipeline.Value
import Idealize.ShloMosaic.Lib.ValueIdx

namespace PairIndex

open Idealize.ShloMosaic Idealize.ShloMosaic.ValueIdx

/-- The first column of band k. -/
def bandOff (k : Nat) : Nat := k * (51 - k) / 2

/-- The band a column lies in: how many of the bands 1 … 25 start at or before it. -/
def rowNat (p : Nat) : Nat := ((List.range 25).filter fun k => decide (bandOff (k + 1) ≤ p)).length

/-- The first field of pair number p. -/
def rowOf (p : Fin 325) : Fin 26 := ⟨min (rowNat p.val) 25, by omega⟩

/-- The second field of pair number p. -/
def colOf (p : Fin 325) : Fin 26 := ⟨min (rowNat p.val + 1 + (p.val - bandOff (rowNat p.val))) 25, by omega⟩

/-- Column p sits in band rowOf p (one of the 25), inside its span, and its pair's second field is
    the first plus one plus the position in the band. Checked over the 325 columns. -/
theorem pair_facts : ∀ p : Fin 325, (rowOf p).val < 25 ∧ bandOff (rowOf p).val ≤ p.val
    ∧ p.val - bandOff (rowOf p).val < 25 - (rowOf p).val
    ∧ (colOf p).val = (rowOf p).val + 1 + (p.val - bandOff (rowOf p).val) := by
  decide +kernel

/-- The pair's fields are in order. -/
theorem row_lt_col (p : Fin 325) : (rowOf p).val < (colOf p).val := by
  have := pair_facts p; omega

section Band
variable {α : Type}

/-- Band k of a [128, 26, 26] array — rows all, second axis k alone, third axis from k+1 on, N entries —
    with the unit axis dropped, read at (r, q): the array at (r, k, k + 1 + q). -/
theorem band_read (g : (⟨3, ![128, 26, 26]⟩ : Shape).Idx → α) (k N : Nat)
    (hs : (⟨3, ![128, 26, 26]⟩ : Shape).Slices ![0, k, k + 1] ⟨3, ![128, 1, N]⟩)
    (hc : (⟨3, ![128, 1, N]⟩ : Shape).ShapeCasts ⟨2, ![128, N]⟩)
    (r : Fin 128) (q : Fin N) (hk : k < 26) (hq : k + 1 + q.val < 26) :
    shapeCast ⟨2, ![128, N]⟩ (extractStridedSlice ⟨3, ![128, 1, N]⟩ ![0, k, k + 1] g hs) hc (ix2 r q)
      = g (ix3 r ⟨k, hk⟩ ⟨k + 1 + q.val, hq⟩) := by
  refine (shapeCast_apply _ hc (ix2 r q) (ix3 r (0 : Fin 1) q) ?_).trans ?_
  · rw [Shape.rowMajor_val_three, Shape.rowMajor_val_two]
    show (r.val * 1 + 0) * N + q.val = r.val * N + q.val
    rw [Nat.mul_one, Nat.add_zero]
  · refine extractStridedSlice_apply _ g hs (ix3 r (0 : Fin 1) q) (ix3 r ⟨k, hk⟩ ⟨k + 1 + q.val, hq⟩) ?_
    intro a
    match a with
    | ⟨0, _⟩ => show r.val = 0 + r.val; omega
    | ⟨1, _⟩ => show k = k + 0; omega
    | ⟨2, _⟩ => rfl

end Band

end PairIndex
-- ==== Proof.KernelBands.lean ====
/-
  The kernel body's arithmetic, read entry by entry.  Each of the four 128-row chunks of a block
  stores the same function of the chunk it loads: the Gram array g[b, i, j] = Σ_d v[b, i, d] · v[b, j, d]
  (a batched product of the chunk with itself into a zero accumulator), cut into the 25 bands
  g[:, k, k+1:] and laid side by side.  Column p of the result is therefore g[b, rowOf p, colOf p]:
  the inner product of fields rowOf p and colOf p of row b.
-/
import proofs.«147158_g12421045420591_cont_fleet_442_14_alg».proof.Proof.Gen.KernelIdeal.Skeleton
import proofs.«147158_g12421045420591_cont_fleet_442_14_alg».proof.Proof.PairIndex
import Idealize.ShloMosaic.PureOps.Ideal.Laws

noncomputable section

namespace Cert.KernelIdeal.Bands

open Cert.KernelIdeal Cert.KernelIdeal.Gen Idealize.ShloMosaic Idealize.ShloMosaic.ValueIdx PairIndex

variable {F : FTy → Type} [FloatOps F]

/-- The Gram array of a chunk: its batched product with itself over the embedding axis, from zero. -/
def gram (v : FVec F S128x26x128 .f32) : FVec F S128x26x26 .f32 :=
  matmul dot_S128x26x128_S128x26x128_S128x26x26_2_2_1_1_0_0 none v v (constant S128x26x26 .f32 0x00000000#32)

/-- The four chunks' stored values are one function of the chunk loaded. -/
theorem pay3_eq (v : Vec F S128x26x128 .f32) : k0_pay3 v = k0_pay2 v := rfl
theorem pay4_eq (v : Vec F S128x26x128 .f32) : k0_pay4 v = k0_pay2 v := rfl
theorem pay1_eq (v : Vec F S128x26x128 .f32) : k0_pay1 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) = k0_pay2 v := rfl

/-- The 25 bands' shapes, in order. -/
def bandShapes : List Shape := [S128x25, S128x24, S128x23, S128x22, S128x21, S128x20, S128x19, S128x18, S128x17, S128x16, S128x15, S128x14, S128x13, S128x12, S128x11, S128x10, S128x9, S128x8, S128x7, S128x6, S128x5, S128x4, S128x3, S128x2, S128x1]

/-- The extents of the bands before band k add up to bandOff k. -/
theorem pre_sum : ∀ k : Fin 26, (((bandShapes.take k.val).map fun s : Shape =>
      if h : s.rank = S128x325.rank then s.size ((1 : Fin S128x325.rank).cast h.symm) else 0).sum = bandOff k.val) := by
  decide

/-! The concatenation of 25 arrays of 25, 24, …, 1 columns, read inside band K: the K-th array at the
    column's position in the band (one statement per band: the array's type depends on the band). -/

set_option maxRecDepth 8192 in
theorem pay1_at_0 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 0) (hp : bandOff 0 + q < 325) :
    k0_pay1 w0 w1 w2 w3 w4 w5 w6 w7 w8 w9 w10 w11 w12 w13 w14 w15 w16 w17 w18 w19 w20 w21 w22 w23 w24 (ix2 r ⟨bandOff 0 + q, hp⟩) = w0 (ix2 r (⟨q, hq⟩ : Fin (25 - 0))) := by
  refine concatenate_apply_piece (t := S128x325) (1 : Fin 2) _ ?h (ix2 r ⟨bandOff 0 + q, hp⟩) 0
    (by show (0 : Nat) < 25; omega)
    (⟨2, ![128, 25 - 0]⟩ : Shape) _ rfl rfl (bandOff 0) ?hpre (ix2 r (⟨q, hq⟩ : Fin (25 - 0)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨0, by omega⟩

set_option maxRecDepth 8192 in
theorem pay1_at_1 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 1) (hp : bandOff 1 + q < 325) :
    k0_pay1 w0 w1 w2 w3 w4 w5 w6 w7 w8 w9 w10 w11 w12 w13 w14 w15 w16 w17 w18 w19 w20 w21 w22 w23 w24 (ix2 r ⟨bandOff 1 + q, hp⟩) = w1 (ix2 r (⟨q, hq⟩ : Fin (25 - 1))) := by
  refine concatenate_apply_piece (t := S128x325) (1 : Fin 2) _ ?h (ix2 r ⟨bandOff 1 + q, hp⟩) 1
    (by show (1 : Nat) < 25; omega)
    (⟨2, ![128, 25 - 1]⟩ : Shape) _ rfl rfl (bandOff 1) ?hpre (ix2 r (⟨q, hq⟩ : Fin (25 - 1)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨1, by omega⟩

set_option maxRecDepth 8192 in
theorem pay1_at_2 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 2) (hp : bandOff 2 + q < 325) :
    k0_pay1 w0 w1 w2 w3 w4 w5 w6 w7 w8 w9 w10 w11 w12 w13 w14 w15 w16 w17 w18 w19 w20 w21 w22 w23 w24 (ix2 r ⟨bandOff 2 + q, hp⟩) = w2 (ix2 r (⟨q, hq⟩ : Fin (25 - 2))) := by
  refine concatenate_apply_piece (t := S128x325) (1 : Fin 2) _ ?h (ix2 r ⟨bandOff 2 + q, hp⟩) 2
    (by show (2 : Nat) < 25; omega)
    (⟨2, ![128, 25 - 2]⟩ : Shape) _ rfl rfl (bandOff 2) ?hpre (ix2 r (⟨q, hq⟩ : Fin (25 - 2)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨2, by omega⟩

set_option maxRecDepth 8192 in
theorem pay1_at_3 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 3) (hp : bandOff 3 + q < 325) :
    k0_pay1 w0 w1 w2 w3 w4 w5 w6 w7 w8 w9 w10 w11 w12 w13 w14 w15 w16 w17 w18 w19 w20 w21 w22 w23 w24 (ix2 r ⟨bandOff 3 + q, hp⟩) = w3 (ix2 r (⟨q, hq⟩ : Fin (25 - 3))) := by
  refine concatenate_apply_piece (t := S128x325) (1 : Fin 2) _ ?h (ix2 r ⟨bandOff 3 + q, hp⟩) 3
    (by show (3 : Nat) < 25; omega)
    (⟨2, ![128, 25 - 3]⟩ : Shape) _ rfl rfl (bandOff 3) ?hpre (ix2 r (⟨q, hq⟩ : Fin (25 - 3)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨3, by omega⟩

set_option maxRecDepth 8192 in
theorem pay1_at_4 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 4) (hp : bandOff 4 + q < 325) :
    k0_pay1 w0 w1 w2 w3 w4 w5 w6 w7 w8 w9 w10 w11 w12 w13 w14 w15 w16 w17 w18 w19 w20 w21 w22 w23 w24 (ix2 r ⟨bandOff 4 + q, hp⟩) = w4 (ix2 r (⟨q, hq⟩ : Fin (25 - 4))) := by
  refine concatenate_apply_piece (t := S128x325) (1 : Fin 2) _ ?h (ix2 r ⟨bandOff 4 + q, hp⟩) 4
    (by show (4 : Nat) < 25; omega)
    (⟨2, ![128, 25 - 4]⟩ : Shape) _ rfl rfl (bandOff 4) ?hpre (ix2 r (⟨q, hq⟩ : Fin (25 - 4)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨4, by omega⟩

set_option maxRecDepth 8192 in
theorem pay1_at_5 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 5) (hp : bandOff 5 + q < 325) :
    k0_pay1 w0 w1 w2 w3 w4 w5 w6 w7 w8 w9 w10 w11 w12 w13 w14 w15 w16 w17 w18 w19 w20 w21 w22 w23 w24 (ix2 r ⟨bandOff 5 + q, hp⟩) = w5 (ix2 r (⟨q, hq⟩ : Fin (25 - 5))) := by
  refine concatenate_apply_piece (t := S128x325) (1 : Fin 2) _ ?h (ix2 r ⟨bandOff 5 + q, hp⟩) 5
    (by show (5 : Nat) < 25; omega)
    (⟨2, ![128, 25 - 5]⟩ : Shape) _ rfl rfl (bandOff 5) ?hpre (ix2 r (⟨q, hq⟩ : Fin (25 - 5)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨5, by omega⟩

set_option maxRecDepth 8192 in
theorem pay1_at_6 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 6) (hp : bandOff 6 + q < 325) :
    k0_pay1 w0 w1 w2 w3 w4 w5 w6 w7 w8 w9 w10 w11 w12 w13 w14 w15 w16 w17 w18 w19 w20 w21 w22 w23 w24 (ix2 r ⟨bandOff 6 + q, hp⟩) = w6 (ix2 r (⟨q, hq⟩ : Fin (25 - 6))) := by
  refine concatenate_apply_piece (t := S128x325) (1 : Fin 2) _ ?h (ix2 r ⟨bandOff 6 + q, hp⟩) 6
    (by show (6 : Nat) < 25; omega)
    (⟨2, ![128, 25 - 6]⟩ : Shape) _ rfl rfl (bandOff 6) ?hpre (ix2 r (⟨q, hq⟩ : Fin (25 - 6)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨6, by omega⟩

set_option maxRecDepth 8192 in
theorem pay1_at_7 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 7) (hp : bandOff 7 + q < 325) :
    k0_pay1 w0 w1 w2 w3 w4 w5 w6 w7 w8 w9 w10 w11 w12 w13 w14 w15 w16 w17 w18 w19 w20 w21 w22 w23 w24 (ix2 r ⟨bandOff 7 + q, hp⟩) = w7 (ix2 r (⟨q, hq⟩ : Fin (25 - 7))) := by
  refine concatenate_apply_piece (t := S128x325) (1 : Fin 2) _ ?h (ix2 r ⟨bandOff 7 + q, hp⟩) 7
    (by show (7 : Nat) < 25; omega)
    (⟨2, ![128, 25 - 7]⟩ : Shape) _ rfl rfl (bandOff 7) ?hpre (ix2 r (⟨q, hq⟩ : Fin (25 - 7)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨7, by omega⟩

set_option maxRecDepth 8192 in
theorem pay1_at_8 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 8) (hp : bandOff 8 + q < 325) :
    k0_pay1 w0 w1 w2 w3 w4 w5 w6 w7 w8 w9 w10 w11 w12 w13 w14 w15 w16 w17 w18 w19 w20 w21 w22 w23 w24 (ix2 r ⟨bandOff 8 + q, hp⟩) = w8 (ix2 r (⟨q, hq⟩ : Fin (25 - 8))) := by
  refine concatenate_apply_piece (t := S128x325) (1 : Fin 2) _ ?h (ix2 r ⟨bandOff 8 + q, hp⟩) 8
    (by show (8 : Nat) < 25; omega)
    (⟨2, ![128, 25 - 8]⟩ : Shape) _ rfl rfl (bandOff 8) ?hpre (ix2 r (⟨q, hq⟩ : Fin (25 - 8)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨8, by omega⟩

set_option maxRecDepth 8192 in
theorem pay1_at_9 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 9) (hp : bandOff 9 + q < 325) :
    k0_pay1 w0 w1 w2 w3 w4 w5 w6 w7 w8 w9 w10 w11 w12 w13 w14 w15 w16 w17 w18 w19 w20 w21 w22 w23 w24 (ix2 r ⟨bandOff 9 + q, hp⟩) = w9 (ix2 r (⟨q, hq⟩ : Fin (25 - 9))) := by
  refine concatenate_apply_piece (t := S128x325) (1 : Fin 2) _ ?h (ix2 r ⟨bandOff 9 + q, hp⟩) 9
    (by show (9 : Nat) < 25; omega)
    (⟨2, ![128, 25 - 9]⟩ : Shape) _ rfl rfl (bandOff 9) ?hpre (ix2 r (⟨q, hq⟩ : Fin (25 - 9)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨9, by omega⟩

set_option maxRecDepth 8192 in
theorem pay1_at_10 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 10) (hp : bandOff 10 + q < 325) :
    k0_pay1 w0 w1 w2 w3 w4 w5 w6 w7 w8 w9 w10 w11 w12 w13 w14 w15 w16 w17 w18 w19 w20 w21 w22 w23 w24 (ix2 r ⟨bandOff 10 + q, hp⟩) = w10 (ix2 r (⟨q, hq⟩ : Fin (25 - 10))) := by
  refine concatenate_apply_piece (t := S128x325) (1 : Fin 2) _ ?h (ix2 r ⟨bandOff 10 + q, hp⟩) 10
    (by show (10 : Nat) < 25; omega)
    (⟨2, ![128, 25 - 10]⟩ : Shape) _ rfl rfl (bandOff 10) ?hpre (ix2 r (⟨q, hq⟩ : Fin (25 - 10)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨10, by omega⟩

set_option maxRecDepth 8192 in
theorem pay1_at_11 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 11) (hp : bandOff 11 + q < 325) :
    k0_pay1 w0 w1 w2 w3 w4 w5 w6 w7 w8 w9 w10 w11 w12 w13 w14 w15 w16 w17 w18 w19 w20 w21 w22 w23 w24 (ix2 r ⟨bandOff 11 + q, hp⟩) = w11 (ix2 r (⟨q, hq⟩ : Fin (25 - 11))) := by
  refine concatenate_apply_piece (t := S128x325) (1 : Fin 2) _ ?h (ix2 r ⟨bandOff 11 + q, hp⟩) 11
    (by show (11 : Nat) < 25; omega)
    (⟨2, ![128, 25 - 11]⟩ : Shape) _ rfl rfl (bandOff 11) ?hpre (ix2 r (⟨q, hq⟩ : Fin (25 - 11)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨11, by omega⟩

set_option maxRecDepth 8192 in
theorem pay1_at_12 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 12) (hp : bandOff 12 + q < 325) :
    k0_pay1 w0 w1 w2 w3 w4 w5 w6 w7 w8 w9 w10 w11 w12 w13 w14 w15 w16 w17 w18 w19 w20 w21 w22 w23 w24 (ix2 r ⟨bandOff 12 + q, hp⟩) = w12 (ix2 r (⟨q, hq⟩ : Fin (25 - 12))) := by
  refine concatenate_apply_piece (t := S128x325) (1 : Fin 2) _ ?h (ix2 r ⟨bandOff 12 + q, hp⟩) 12
    (by show (12 : Nat) < 25; omega)
    (⟨2, ![128, 25 - 12]⟩ : Shape) _ rfl rfl (bandOff 12) ?hpre (ix2 r (⟨q, hq⟩ : Fin (25 - 12)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨12, by omega⟩

set_option maxRecDepth 8192 in
theorem pay1_at_13 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 13) (hp : bandOff 13 + q < 325) :
    k0_pay1 w0 w1 w2 w3 w4 w5 w6 w7 w8 w9 w10 w11 w12 w13 w14 w15 w16 w17 w18 w19 w20 w21 w22 w23 w24 (ix2 r ⟨bandOff 13 + q, hp⟩) = w13 (ix2 r (⟨q, hq⟩ : Fin (25 - 13))) := by
  refine concatenate_apply_piece (t := S128x325) (1 : Fin 2) _ ?h (ix2 r ⟨bandOff 13 + q, hp⟩) 13
    (by show (13 : Nat) < 25; omega)
    (⟨2, ![128, 25 - 13]⟩ : Shape) _ rfl rfl (bandOff 13) ?hpre (ix2 r (⟨q, hq⟩ : Fin (25 - 13)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨13, by omega⟩

set_option maxRecDepth 8192 in
theorem pay1_at_14 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 14) (hp : bandOff 14 + q < 325) :
    k0_pay1 w0 w1 w2 w3 w4 w5 w6 w7 w8 w9 w10 w11 w12 w13 w14 w15 w16 w17 w18 w19 w20 w21 w22 w23 w24 (ix2 r ⟨bandOff 14 + q, hp⟩) = w14 (ix2 r (⟨q, hq⟩ : Fin (25 - 14))) := by
  refine concatenate_apply_piece (t := S128x325) (1 : Fin 2) _ ?h (ix2 r ⟨bandOff 14 + q, hp⟩) 14
    (by show (14 : Nat) < 25; omega)
    (⟨2, ![128, 25 - 14]⟩ : Shape) _ rfl rfl (bandOff 14) ?hpre (ix2 r (⟨q, hq⟩ : Fin (25 - 14)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨14, by omega⟩

set_option maxRecDepth 8192 in
theorem pay1_at_15 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 15) (hp : bandOff 15 + q < 325) :
    k0_pay1 w0 w1 w2 w3 w4 w5 w6 w7 w8 w9 w10 w11 w12 w13 w14 w15 w16 w17 w18 w19 w20 w21 w22 w23 w24 (ix2 r ⟨bandOff 15 + q, hp⟩) = w15 (ix2 r (⟨q, hq⟩ : Fin (25 - 15))) := by
  refine concatenate_apply_piece (t := S128x325) (1 : Fin 2) _ ?h (ix2 r ⟨bandOff 15 + q, hp⟩) 15
    (by show (15 : Nat) < 25; omega)
    (⟨2, ![128, 25 - 15]⟩ : Shape) _ rfl rfl (bandOff 15) ?hpre (ix2 r (⟨q, hq⟩ : Fin (25 - 15)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨15, by omega⟩

set_option maxRecDepth 8192 in
theorem pay1_at_16 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 16) (hp : bandOff 16 + q < 325) :
    k0_pay1 w0 w1 w2 w3 w4 w5 w6 w7 w8 w9 w10 w11 w12 w13 w14 w15 w16 w17 w18 w19 w20 w21 w22 w23 w24 (ix2 r ⟨bandOff 16 + q, hp⟩) = w16 (ix2 r (⟨q, hq⟩ : Fin (25 - 16))) := by
  refine concatenate_apply_piece (t := S128x325) (1 : Fin 2) _ ?h (ix2 r ⟨bandOff 16 + q, hp⟩) 16
    (by show (16 : Nat) < 25; omega)
    (⟨2, ![128, 25 - 16]⟩ : Shape) _ rfl rfl (bandOff 16) ?hpre (ix2 r (⟨q, hq⟩ : Fin (25 - 16)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨16, by omega⟩

set_option maxRecDepth 8192 in
theorem pay1_at_17 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 17) (hp : bandOff 17 + q < 325) :
    k0_pay1 w0 w1 w2 w3 w4 w5 w6 w7 w8 w9 w10 w11 w12 w13 w14 w15 w16 w17 w18 w19 w20 w21 w22 w23 w24 (ix2 r ⟨bandOff 17 + q, hp⟩) = w17 (ix2 r (⟨q, hq⟩ : Fin (25 - 17))) := by
  refine concatenate_apply_piece (t := S128x325) (1 : Fin 2) _ ?h (ix2 r ⟨bandOff 17 + q, hp⟩) 17
    (by show (17 : Nat) < 25; omega)
    (⟨2, ![128, 25 - 17]⟩ : Shape) _ rfl rfl (bandOff 17) ?hpre (ix2 r (⟨q, hq⟩ : Fin (25 - 17)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨17, by omega⟩

set_option maxRecDepth 8192 in
theorem pay1_at_18 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 18) (hp : bandOff 18 + q < 325) :
    k0_pay1 w0 w1 w2 w3 w4 w5 w6 w7 w8 w9 w10 w11 w12 w13 w14 w15 w16 w17 w18 w19 w20 w21 w22 w23 w24 (ix2 r ⟨bandOff 18 + q, hp⟩) = w18 (ix2 r (⟨q, hq⟩ : Fin (25 - 18))) := by
  refine concatenate_apply_piece (t := S128x325) (1 : Fin 2) _ ?h (ix2 r ⟨bandOff 18 + q, hp⟩) 18
    (by show (18 : Nat) < 25; omega)
    (⟨2, ![128, 25 - 18]⟩ : Shape) _ rfl rfl (bandOff 18) ?hpre (ix2 r (⟨q, hq⟩ : Fin (25 - 18)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨18, by omega⟩

set_option maxRecDepth 8192 in
theorem pay1_at_19 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 19) (hp : bandOff 19 + q < 325) :
    k0_pay1 w0 w1 w2 w3 w4 w5 w6 w7 w8 w9 w10 w11 w12 w13 w14 w15 w16 w17 w18 w19 w20 w21 w22 w23 w24 (ix2 r ⟨bandOff 19 + q, hp⟩) = w19 (ix2 r (⟨q, hq⟩ : Fin (25 - 19))) := by
  refine concatenate_apply_piece (t := S128x325) (1 : Fin 2) _ ?h (ix2 r ⟨bandOff 19 + q, hp⟩) 19
    (by show (19 : Nat) < 25; omega)
    (⟨2, ![128, 25 - 19]⟩ : Shape) _ rfl rfl (bandOff 19) ?hpre (ix2 r (⟨q, hq⟩ : Fin (25 - 19)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨19, by omega⟩

set_option maxRecDepth 8192 in
theorem pay1_at_20 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 20) (hp : bandOff 20 + q < 325) :
    k0_pay1 w0 w1 w2 w3 w4 w5 w6 w7 w8 w9 w10 w11 w12 w13 w14 w15 w16 w17 w18 w19 w20 w21 w22 w23 w24 (ix2 r ⟨bandOff 20 + q, hp⟩) = w20 (ix2 r (⟨q, hq⟩ : Fin (25 - 20))) := by
  refine concatenate_apply_piece (t := S128x325) (1 : Fin 2) _ ?h (ix2 r ⟨bandOff 20 + q, hp⟩) 20
    (by show (20 : Nat) < 25; omega)
    (⟨2, ![128, 25 - 20]⟩ : Shape) _ rfl rfl (bandOff 20) ?hpre (ix2 r (⟨q, hq⟩ : Fin (25 - 20)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨20, by omega⟩

set_option maxRecDepth 8192 in
theorem pay1_at_21 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 21) (hp : bandOff 21 + q < 325) :
    k0_pay1 w0 w1 w2 w3 w4 w5 w6 w7 w8 w9 w10 w11 w12 w13 w14 w15 w16 w17 w18 w19 w20 w21 w22 w23 w24 (ix2 r ⟨bandOff 21 + q, hp⟩) = w21 (ix2 r (⟨q, hq⟩ : Fin (25 - 21))) := by
  refine concatenate_apply_piece (t := S128x325) (1 : Fin 2) _ ?h (ix2 r ⟨bandOff 21 + q, hp⟩) 21
    (by show (21 : Nat) < 25; omega)
    (⟨2, ![128, 25 - 21]⟩ : Shape) _ rfl rfl (bandOff 21) ?hpre (ix2 r (⟨q, hq⟩ : Fin (25 - 21)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨21, by omega⟩

set_option maxRecDepth 8192 in
theorem pay1_at_22 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 22) (hp : bandOff 22 + q < 325) :
    k0_pay1 w0 w1 w2 w3 w4 w5 w6 w7 w8 w9 w10 w11 w12 w13 w14 w15 w16 w17 w18 w19 w20 w21 w22 w23 w24 (ix2 r ⟨bandOff 22 + q, hp⟩) = w22 (ix2 r (⟨q, hq⟩ : Fin (25 - 22))) := by
  refine concatenate_apply_piece (t := S128x325) (1 : Fin 2) _ ?h (ix2 r ⟨bandOff 22 + q, hp⟩) 22
    (by show (22 : Nat) < 25; omega)
    (⟨2, ![128, 25 - 22]⟩ : Shape) _ rfl rfl (bandOff 22) ?hpre (ix2 r (⟨q, hq⟩ : Fin (25 - 22)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨22, by omega⟩

set_option maxRecDepth 8192 in
theorem pay1_at_23 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 23) (hp : bandOff 23 + q < 325) :
    k0_pay1 w0 w1 w2 w3 w4 w5 w6 w7 w8 w9 w10 w11 w12 w13 w14 w15 w16 w17 w18 w19 w20 w21 w22 w23 w24 (ix2 r ⟨bandOff 23 + q, hp⟩) = w23 (ix2 r (⟨q, hq⟩ : Fin (25 - 23))) := by
  refine concatenate_apply_piece (t := S128x325) (1 : Fin 2) _ ?h (ix2 r ⟨bandOff 23 + q, hp⟩) 23
    (by show (23 : Nat) < 25; omega)
    (⟨2, ![128, 25 - 23]⟩ : Shape) _ rfl rfl (bandOff 23) ?hpre (ix2 r (⟨q, hq⟩ : Fin (25 - 23)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨23, by omega⟩

set_option maxRecDepth 8192 in
theorem pay1_at_24 (w0 : FVec F S128x25 .f32) (w1 : FVec F S128x24 .f32) (w2 : FVec F S128x23 .f32) (w3 : FVec F S128x22 .f32) (w4 : FVec F S128x21 .f32) (w5 : FVec F S128x20 .f32) (w6 : FVec F S128x19 .f32) (w7 : FVec F S128x18 .f32) (w8 : FVec F S128x17 .f32) (w9 : FVec F S128x16 .f32) (w10 : FVec F S128x15 .f32) (w11 : FVec F S128x14 .f32) (w12 : FVec F S128x13 .f32) (w13 : FVec F S128x12 .f32) (w14 : FVec F S128x11 .f32) (w15 : FVec F S128x10 .f32) (w16 : FVec F S128x9 .f32) (w17 : FVec F S128x8 .f32) (w18 : FVec F S128x7 .f32) (w19 : FVec F S128x6 .f32) (w20 : FVec F S128x5 .f32) (w21 : FVec F S128x4 .f32) (w22 : FVec F S128x3 .f32) (w23 : FVec F S128x2 .f32) (w24 : FVec F S128x1 .f32) (r : Fin 128) (q : Nat) (hq : q < 25 - 24) (hp : bandOff 24 + q < 325) :
    k0_pay1 w0 w1 w2 w3 w4 w5 w6 w7 w8 w9 w10 w11 w12 w13 w14 w15 w16 w17 w18 w19 w20 w21 w22 w23 w24 (ix2 r ⟨bandOff 24 + q, hp⟩) = w24 (ix2 r (⟨q, hq⟩ : Fin (25 - 24))) := by
  refine concatenate_apply_piece (t := S128x325) (1 : Fin 2) _ ?h (ix2 r ⟨bandOff 24 + q, hp⟩) 24
    (by show (24 : Nat) < 25; omega)
    (⟨2, ![128, 25 - 24]⟩ : Shape) _ rfl rfl (bandOff 24) ?hpre (ix2 r (⟨q, hq⟩ : Fin (25 - 24)))
    (fun b hb => by match b with | ⟨0, _⟩ => rfl | ⟨1, _⟩ => exact absurd rfl hb) rfl
  case h => exact concatenates_S128x25_S128x24_S128x23_S128x22_S128x21_S128x20_S128x19_S128x18_S128x17_S128x16_S128x15_S128x14_S128x13_S128x12_S128x11_S128x10_S128x9_S128x8_S128x7_S128x6_S128x5_S128x4_S128x3_S128x2_S128x1_S128x325_d1
  case hpre => exact pre_sum ⟨24, by omega⟩

set_option maxRecDepth 8192 in
/-- Column bandOff k + q of the stored value is the Gram array at (k, k + 1 + q). -/
theorem pay2_band (v : Vec F S128x26x128 .f32) (r : Fin 128) (k q : Nat) (hk : k < 25) (hq : q < 25 - k)
    (hp : bandOff k + q < 325) :
    k0_pay2 v (ix2 r ⟨bandOff k + q, hp⟩) = gram v (ix3 r ⟨k, by omega⟩ ⟨k + 1 + q, by omega⟩) := by
  match k, hk, hq, hp with
  | 0, _, hq, hp =>
    exact (congrFun (pay1_eq v).symm _).trans ((pay1_at_0 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 0 (25 - 0) _ _ r ⟨q, hq⟩ (by omega) (by omega)))
  | 1, _, hq, hp =>
    exact (congrFun (pay1_eq v).symm _).trans ((pay1_at_1 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 1 (25 - 1) _ _ r ⟨q, hq⟩ (by omega) (by omega)))
  | 2, _, hq, hp =>
    exact (congrFun (pay1_eq v).symm _).trans ((pay1_at_2 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 2 (25 - 2) _ _ r ⟨q, hq⟩ (by omega) (by omega)))
  | 3, _, hq, hp =>
    exact (congrFun (pay1_eq v).symm _).trans ((pay1_at_3 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 3 (25 - 3) _ _ r ⟨q, hq⟩ (by omega) (by omega)))
  | 4, _, hq, hp =>
    exact (congrFun (pay1_eq v).symm _).trans ((pay1_at_4 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 4 (25 - 4) _ _ r ⟨q, hq⟩ (by omega) (by omega)))
  | 5, _, hq, hp =>
    exact (congrFun (pay1_eq v).symm _).trans ((pay1_at_5 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 5 (25 - 5) _ _ r ⟨q, hq⟩ (by omega) (by omega)))
  | 6, _, hq, hp =>
    exact (congrFun (pay1_eq v).symm _).trans ((pay1_at_6 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 6 (25 - 6) _ _ r ⟨q, hq⟩ (by omega) (by omega)))
  | 7, _, hq, hp =>
    exact (congrFun (pay1_eq v).symm _).trans ((pay1_at_7 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 7 (25 - 7) _ _ r ⟨q, hq⟩ (by omega) (by omega)))
  | 8, _, hq, hp =>
    exact (congrFun (pay1_eq v).symm _).trans ((pay1_at_8 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 8 (25 - 8) _ _ r ⟨q, hq⟩ (by omega) (by omega)))
  | 9, _, hq, hp =>
    exact (congrFun (pay1_eq v).symm _).trans ((pay1_at_9 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 9 (25 - 9) _ _ r ⟨q, hq⟩ (by omega) (by omega)))
  | 10, _, hq, hp =>
    exact (congrFun (pay1_eq v).symm _).trans ((pay1_at_10 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 10 (25 - 10) _ _ r ⟨q, hq⟩ (by omega) (by omega)))
  | 11, _, hq, hp =>
    exact (congrFun (pay1_eq v).symm _).trans ((pay1_at_11 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 11 (25 - 11) _ _ r ⟨q, hq⟩ (by omega) (by omega)))
  | 12, _, hq, hp =>
    exact (congrFun (pay1_eq v).symm _).trans ((pay1_at_12 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 12 (25 - 12) _ _ r ⟨q, hq⟩ (by omega) (by omega)))
  | 13, _, hq, hp =>
    exact (congrFun (pay1_eq v).symm _).trans ((pay1_at_13 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 13 (25 - 13) _ _ r ⟨q, hq⟩ (by omega) (by omega)))
  | 14, _, hq, hp =>
    exact (congrFun (pay1_eq v).symm _).trans ((pay1_at_14 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 14 (25 - 14) _ _ r ⟨q, hq⟩ (by omega) (by omega)))
  | 15, _, hq, hp =>
    exact (congrFun (pay1_eq v).symm _).trans ((pay1_at_15 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 15 (25 - 15) _ _ r ⟨q, hq⟩ (by omega) (by omega)))
  | 16, _, hq, hp =>
    exact (congrFun (pay1_eq v).symm _).trans ((pay1_at_16 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 16 (25 - 16) _ _ r ⟨q, hq⟩ (by omega) (by omega)))
  | 17, _, hq, hp =>
    exact (congrFun (pay1_eq v).symm _).trans ((pay1_at_17 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 17 (25 - 17) _ _ r ⟨q, hq⟩ (by omega) (by omega)))
  | 18, _, hq, hp =>
    exact (congrFun (pay1_eq v).symm _).trans ((pay1_at_18 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 18 (25 - 18) _ _ r ⟨q, hq⟩ (by omega) (by omega)))
  | 19, _, hq, hp =>
    exact (congrFun (pay1_eq v).symm _).trans ((pay1_at_19 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 19 (25 - 19) _ _ r ⟨q, hq⟩ (by omega) (by omega)))
  | 20, _, hq, hp =>
    exact (congrFun (pay1_eq v).symm _).trans ((pay1_at_20 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 20 (25 - 20) _ _ r ⟨q, hq⟩ (by omega) (by omega)))
  | 21, _, hq, hp =>
    exact (congrFun (pay1_eq v).symm _).trans ((pay1_at_21 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 21 (25 - 21) _ _ r ⟨q, hq⟩ (by omega) (by omega)))
  | 22, _, hq, hp =>
    exact (congrFun (pay1_eq v).symm _).trans ((pay1_at_22 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 22 (25 - 22) _ _ r ⟨q, hq⟩ (by omega) (by omega)))
  | 23, _, hq, hp =>
    exact (congrFun (pay1_eq v).symm _).trans ((pay1_at_23 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 23 (25 - 23) _ _ r ⟨q, hq⟩ (by omega) (by omega)))
  | 24, _, hq, hp =>
    exact (congrFun (pay1_eq v).symm _).trans ((pay1_at_24 (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) r q hq hp).trans
      (band_read _ 24 (25 - 24) _ _ r ⟨q, hq⟩ (by omega) (by omega)))
  | n + 25, hk, _, _ => exact absurd hk (by omega)

/-- Column p of the stored value is the Gram array at the pair p names. -/
theorem pay2_apply (v : Vec F S128x26x128 .f32) (r : Fin 128) (p : Fin 325) :
    k0_pay2 v (ix2 r p) = gram v (ix3 r (rowOf p) (colOf p)) := by
  obtain ⟨h1, h2, h3, h4⟩ := pair_facts p
  have hp : bandOff (rowOf p).val + (p.val - bandOff (rowOf p).val) < 325 := by have := p.isLt; omega
  have e := pay2_band v r (rowOf p).val (p.val - bandOff (rowOf p).val) h1 h3 hp
  have ep : (⟨bandOff (rowOf p).val + (p.val - bandOff (rowOf p).val), hp⟩ : Fin 325) = p :=
    Fin.ext (by show bandOff (rowOf p).val + (p.val - bandOff (rowOf p).val) = p.val; omega)
  rw [ep] at e
  refine e.trans (congrArg (gram v) ?_)
  funext a
  match a with
  | ⟨0, _⟩ => rfl
  | ⟨1, _⟩ => rfl
  | ⟨2, _⟩ => exact Fin.ext h4.symm

/-! ## The Gram array over the extended reals: a plain sum over the embedding axis -/

theorem lhs_ax0 (J : S128x26x26.Idx) (k : (dot_S128x26x128_S128x26x128_S128x26x26_2_2_1_1_0_0).contr.Idx) : ((dot_S128x26x128_S128x26x128_S128x26x26_2_2_1_1_0_0).lhsIdx J k 0).val = (J 0).val := rfl
theorem lhs_ax1 (J : S128x26x26.Idx) (k : (dot_S128x26x128_S128x26x128_S128x26x26_2_2_1_1_0_0).contr.Idx) : ((dot_S128x26x128_S128x26x128_S128x26x26_2_2_1_1_0_0).lhsIdx J k 1).val = (J 1).val := rfl
theorem lhs_ax2 (J : S128x26x26.Idx) (k : (dot_S128x26x128_S128x26x128_S128x26x26_2_2_1_1_0_0).contr.Idx) :
    ((dot_S128x26x128_S128x26x128_S128x26x26_2_2_1_1_0_0).lhsIdx J k 2).val = (k ⟨0, by decide⟩).val := (dot_S128x26x128_S128x26x128_S128x26x26_2_2_1_1_0_0).lhsIdx_val_of_single rfl J k
theorem rhs_ax0 (J : S128x26x26.Idx) (k : (dot_S128x26x128_S128x26x128_S128x26x26_2_2_1_1_0_0).contr.Idx) : ((dot_S128x26x128_S128x26x128_S128x26x26_2_2_1_1_0_0).rhsIdx J k 0).val = (J 0).val := rfl
theorem rhs_ax1 (J : S128x26x26.Idx) (k : (dot_S128x26x128_S128x26x128_S128x26x26_2_2_1_1_0_0).contr.Idx) : ((dot_S128x26x128_S128x26x128_S128x26x26_2_2_1_1_0_0).rhsIdx J k 1).val = (J 2).val := rfl
theorem rhs_ax2 (J : S128x26x26.Idx) (k : (dot_S128x26x128_S128x26x128_S128x26x26_2_2_1_1_0_0).contr.Idx) :
    ((dot_S128x26x128_S128x26x128_S128x26x26_2_2_1_1_0_0).rhsIdx J k 2).val = (k ⟨0, by decide⟩).val := (dot_S128x26x128_S128x26x128_S128x26x26_2_2_1_1_0_0).rhsIdx_val_of_single rfl J k

/-- At the extended reals the Gram array at (r, i, j) is Σ_d v[r, i, d] · v[r, j, d]. -/
theorem gram_apply (v : FVec Ideal S128x26x128 .f32) (r : Fin 128) (i j : Fin 26) :
    gram v (ix3 r i j) = ∑ d : Fin 128, v (ix3 r i d) * v (ix3 r j d) := by
  unfold gram
  refine (Ideal.matmul_constant_zero_apply (dot_S128x26x128_S128x26x128_S128x26x26_2_2_1_1_0_0) none v v (ix3 r i j)).trans ?_
  rw [← Equiv.sum_comp (contrEquiv1 (dot_S128x26x128_S128x26x128_S128x26x26_2_2_1_1_0_0) 128 rfl rfl).symm]
  refine Finset.sum_congr rfl fun d _ => ?_
  have hk := contrEquiv1_symm_val (dot_S128x26x128_S128x26x128_S128x26x26_2_2_1_1_0_0) 128 rfl rfl d
  congr 2
  · funext a; apply Fin.ext
    match a with
    | ⟨0, _⟩ => exact lhs_ax0 _ _
    | ⟨1, _⟩ => exact lhs_ax1 _ _
    | ⟨2, _⟩ => exact (lhs_ax2 _ _).trans hk
  · funext a; apply Fin.ext
    match a with
    | ⟨0, _⟩ => exact rhs_ax0 _ _
    | ⟨1, _⟩ => exact rhs_ax1 _ _
    | ⟨2, _⟩ => exact (rhs_ax2 _ _).trans hk

end Cert.KernelIdeal.Bands

end
-- ==== Proof.PairSpec.lean ====
/-
  The common value of the two programs: for a [4096, 26, 128] array x of extended reals, the
  [4096, 325] array whose entry (b, p) is the inner product over the embedding axis of the two
  field rows pair p names,  Σ_d x[b, rowOf p, d] · x[b, colOf p, d].
-/
import proofs.«147158_g12421045420591_cont_fleet_442_14_alg».proof.Proof.PairIndex
import Idealize.ShloMosaic.PureOps.Ideal

noncomputable section

namespace PairIndex

open Idealize.ShloMosaic Idealize.ShloMosaic.ValueIdx

/-- Entry (b, p): the inner product of fields rowOf p and colOf p of row b. -/
def pairDots (x : (⟨3, ![4096, 26, 128]⟩ : Shape).Idx → EReal) : (⟨2, ![4096, 325]⟩ : Shape).Idx → EReal :=
  fun i => ∑ d : Fin 128, x (ix3 (n0 := 4096) (i 0) (rowOf (i 1)) d) * x (ix3 (n0 := 4096) (i 0) (colOf (i 1)) d)

theorem pairDots_ix2 (x : (⟨3, ![4096, 26, 128]⟩ : Shape).Idx → EReal) (b : Fin 4096) (p : Fin 325) :
    pairDots x (ix2 b p) = ∑ d : Fin 128, x (ix3 b (rowOf p) d) * x (ix3 b (colOf p) d) := rfl

end PairIndex

end
-- ==== Proof.KernelValue.lean ====
/-
  The kernel's result array.  At grid point t the body turns the [512, 26, 128] block of x it is
  given into a [512, 325] block, four 128-row chunks at a time; entry (r, p) of that block is the
  inner product of field rows rowOf p and colOf p of the block's row r.  Point t's blocks are rows
  512 t … 512 t + 511 of both arrays, so what it writes back is block t of pairDots x, the eight
  blocks tile the result, and the array ends at pairDots x.
-/
import proofs.«147158_g12421045420591_cont_fleet_442_14_alg».proof.Proof.Gen.KernelIdeal.Value
import proofs.«147158_g12421045420591_cont_fleet_442_14_alg».proof.Proof.KernelBands
import proofs.«147158_g12421045420591_cont_fleet_442_14_alg».proof.Proof.PairSpec
import Idealize.ShloMosaic.Lib.Pipeline.Value

noncomputable section

namespace Cert.KernelIdeal.PairValue

open Cert.KernelIdeal Cert.KernelIdeal.Gen Cert.KernelIdeal.Bands Idealize.ShloMosaic Idealize.ShloMosaic.TcCoe
open Idealize.ShloMosaic.ValueIdx PairIndex Idealize.SL.Sem
open Idealize.ShloMosaic.Pipeline (Dat)

/-! ## One block -/

/-- Entry (r, p) of the block the body leaves: the inner product of two field rows of the input block's row r. -/
def blockDots (x0 : S512x26x128.Idx → EReal) : S512x325.Idx → EReal :=
  fun y => ∑ d : Fin 128, x0 (ix3 (n0 := 512) (y 0) (rowOf (y 1)) d) * x0 (ix3 (n0 := 512) (y 0) (colOf (y 1)) d)

/-- A 128-row chunk of the input block starting at row `off`, read at (a, i, d): the block at (off + a, i, d). -/
theorem ld_chunk (x0 : Vec Ideal S512x26x128 .f32) (off : Nat) (inb : ∀ a, (![off, 0, 0] : Fin 3 → Nat) a + S128x26x128.size a ≤ S512x26x128.size a)
    (a : Fin 128) (i : Fin 26) (d : Fin 128) (h : off + a.val < 512) :
    View.ld x0 (Rect.unit (s := S512x26x128) ![off, 0, 0] S128x26x128.size inb) (ix3 a i d) = x0 (ix3 ⟨off + a.val, h⟩ i d) := by
  show x0 _ = x0 _
  congr 1
  funext ax; apply Fin.ext
  match ax with
  | ⟨0, _⟩ => show off + 1 * a.val = off + a.val; omega
  | ⟨1, _⟩ => show 0 + 1 * i.val = i.val; omega
  | ⟨2, _⟩ => show 0 + 1 * d.val = d.val; omega

/-- The matching 128-row chunk of the output block: its entry (a, p) is the block's (off + a, p). -/
theorem emb_chunk (off : Nat) (inb : ∀ a, (![off, 0] : Fin 2 → Nat) a + S128x325.size a ≤ S512x325.size a)
    (a : Fin 128) (p : Fin 325) (h : off + a.val < 512) :
    (Rect.unit (s := S512x325) ![off, 0] S128x325.size inb).emb (ix2 a p) = ix2 (n0 := 512) ⟨off + a.val, h⟩ p := by
  funext ax; apply Fin.ext
  match ax with
  | ⟨0, _⟩ => show off + 1 * a.val = off + a.val; omega
  | ⟨1, _⟩ => show 0 + 1 * p.val = p.val; omega

/-- What a chunk's store holds is the chunk of `blockDots` its rectangle names. -/
theorem chunk_ok (x0 : Vec Ideal S512x26x128 .f32) (off : Nat) (hoff : off + 128 ≤ 512)
    (inbI : ∀ a, (![off, 0, 0] : Fin 3 → Nat) a + S128x26x128.size a ≤ S512x26x128.size a)
    (inbO : ∀ a, (![off, 0] : Fin 2 → Nat) a + S128x325.size a ≤ S512x325.size a)
    (x : S128x325.Idx) :
    k0_pay2 (View.ld x0 (Rect.unit (s := S512x26x128) ![off, 0, 0] S128x26x128.size inbI)) x
      = blockDots x0 ((Rect.unit (s := S512x325) ![off, 0] S128x325.size inbO).emb x) := by
  obtain ⟨a, p, rfl⟩ : ∃ (a : Fin 128) (p : Fin 325), x = ix2 a p := ⟨x 0, x 1, eq_ix2 x⟩
  have h : off + a.val < 512 := by have := a.isLt; omega
  refine (pay2_apply _ a p).trans ((gram_apply _ a _ _).trans ?_)
  rw [emb_chunk off inbO a p h]
  show _ = ∑ d : Fin 128, x0 (ix3 (n0 := 512) ⟨off + a.val, h⟩ (rowOf p) d) * x0 (ix3 (n0 := 512) ⟨off + a.val, h⟩ (colOf p) d)
  refine Finset.sum_congr rfl fun d _ => ?_
  rw [ld_chunk x0 off inbI a (rowOf p) d h, ld_chunk x0 off inbI a (colOf p) d h]

/-- The block the body leaves is `blockDots` of the block it was given. -/
theorem block_apply (x0 : Vec Ideal S512x26x128 .f32) (y : S512x325.Idx) : out0_1 x0 y = blockDots x0 y := by
  unfold out0_1
  refine View.canon_apply_of_pieces (Val := Elt Ideal) (e := .f32) (blockDots x0) _ ?_ y (cover0_1 _ _ _ _ y)
  intro pc hpc x
  simp only [List.mem_cons, List.mem_nil_iff, or_false] at hpc
  rcases hpc with rfl | rfl | rfl | rfl
  · exact (congrFun (pay1_eq _) x).trans (chunk_ok x0 384 (by omega) Facts₀.inb_S512x26x128_S128x26x128_384_0_0 Facts₀.inb_S512x325_S128x325_384_0 x)
  · exact (congrFun (pay4_eq _) x).trans (chunk_ok x0 256 (by omega) Facts₀.inb_S512x26x128_S128x26x128_256_0_0 Facts₀.inb_S512x325_S128x325_256_0 x)
  · exact (congrFun (pay3_eq _) x).trans (chunk_ok x0 128 (by omega) Facts₀.inb_S512x26x128_S128x26x128_128_0_0 Facts₀.inb_S512x325_S128x325_128_0 x)
  · exact chunk_ok x0 0 (by omega) Facts₀.inb_S512x26x128_S128x26x128_0_0_0 Facts₀.inb_S512x325_S128x325_0_0 x

/-! ## The array -/

variable (m : (ℓ : Loc nD τ sig) → Buf (Elt Ideal) ℓ) (ρ : Dev nD → PrngReg)

/-- The printed index maps over the eight grid points: the input block moves with the output block along the rows,
    and neither moves along any other axis. -/
theorem idx_facts : ∀ t : Fin cfg0.N, win0_0.index t (0 : Fin 3) = win0_1.index t (0 : Fin 2)
    ∧ win0_0.index t (1 : Fin 3) = 0 ∧ win0_0.index t (2 : Fin 3) = 0
    ∧ win0_1.index t (1 : Fin 2) = 0 ∧ win0_1.index t (0 : Fin 2) ≤ 7 :=
  (by decide +kernel : ∀ t : Fin grid0.N, _)

/-- Every one of the eight row blocks is some grid point's. -/
theorem idx_onto : ∀ q0 : Fin 8, ∃ t : Fin cfg0.N, win0_1.index t = ![q0.val, 0] :=
  (by decide +kernel : ∀ q0 : Fin 8, ∃ t : Fin grid0.N, win0_1.index t = ![q0.val, 0])

/-- The input block at grid point t, at its literal type. -/
abbrev xblk (c : Dev nD) (t : Fin cfg0.N) : Vec Ideal S512x26x128 .f32 := iblk m c 0 t

/-- What grid point t writes back is block t of `pairDots` of the argument array. -/
theorem flushed_eq (c : Dev nD) (t : Fin cfg0.N) :
    (dats m 0 c).flushed 1 t = ((cfg0.win 1).blk t).view.read (Elt Ideal) (pairDots (V m c main_arg0)) := by
  rw [Cert.KernelIdeal.Value.flushed1]
  obtain ⟨e0, e1, e2, e3, e4⟩ := idx_facts t
  funext j
  have hj0 : (j 0).val < 512 := (j 0).isLt
  have hj1 : (j 1).val < 325 := (j 1).isLt
  have hb : win0_1.index t (0 : Fin 2) * 512 + (j 0).val < 4096 := by omega
  show out0_1 (iblk m c 0 t) j = pairDots (V m c main_arg0) (((cfg0.win 1).blk t).view.emb j)
  refine (block_apply (xblk m c t) j).trans ?_
  have E : ((cfg0.win 1).blk t).view.emb j
      = ix2 (n0 := 4096) ⟨win0_1.index t (0 : Fin 2) * 512 + (j 0).val, hb⟩ (⟨(j 1).val, hj1⟩ : Fin 325) := by
    funext a; apply Fin.ext
    match a with
    | ⟨0, _⟩ => show win0_1.index t (0 : Fin 2) * 512 + 1 * (j 0).val = win0_1.index t (0 : Fin 2) * 512 + (j 0).val; omega
    | ⟨1, _⟩ => show win0_1.index t (1 : Fin 2) * 325 + 1 * (j 1).val = (j 1).val; omega
  rw [E, pairDots_ix2]
  have hrow : ∀ (i : Fin 26) (d : Fin 128), xblk m c t (ix3 (n0 := 512) ⟨(j 0).val, hj0⟩ i d)
      = V m c main_arg0 (ix3 (n0 := 4096) ⟨win0_1.index t (0 : Fin 2) * 512 + (j 0).val, hb⟩ i d) := by
    intro i d
    show V m c main_arg0 (((cfg0.win 0).blk t).view.emb (ix3 (n0 := 512) ⟨(j 0).val, hj0⟩ i d)) = _
    congr 1
    funext a; apply Fin.ext
    match a with
    | ⟨0, _⟩ => show win0_0.index t (0 : Fin 3) * 512 + 1 * (j 0).val = win0_1.index t (0 : Fin 2) * 512 + (j 0).val; omega
    | ⟨1, _⟩ => show win0_0.index t (1 : Fin 3) * 26 + 1 * i.val = i.val; omega
    | ⟨2, _⟩ => show win0_0.index t (2 : Fin 3) * 128 + 1 * d.val = d.val; omega
  show (∑ d : Fin 128, xblk m c t (ix3 (n0 := 512) ⟨(j 0).val, hj0⟩ (rowOf ⟨(j 1).val, hj1⟩) d)
      * xblk m c t (ix3 (n0 := 512) ⟨(j 0).val, hj0⟩ (colOf ⟨(j 1).val, hj1⟩) d)) = _
  exact Finset.sum_congr rfl fun d _ => by rw [hrow, hrow]

/-- An index of the result array is in point t's block iff each coordinate is in the block's range on its axis. -/
theorem mem_blk (t : Fin cfg0.N) (i : S4096x325.Idx) :
    i ∈ ((cfg0.win 1).blk t).view.set ↔ ∀ a : Fin 2, win0_1.index t a * S512x325.size a ≤ (i a).val
      ∧ (i a).val < win0_1.index t a * S512x325.size a + S512x325.size a := by
  show i ∈ ((View.whole main_v0).slice (win0_1.rect t)).set ↔ _
  rw [View.set_slice_whole, Rect.mem_set_unit]
  exact Iff.rfl

/-- The eight blocks tile the result array: row R is in the block of the point with block index R / 512. -/
theorem cover (i : S4096x325.Idx) :
    ∃ t : Fin cfg0.N, (cfg0.win 1).flush t = true ∧ i ∈ ((cfg0.win 1).blk t).view.set := by
  have hi0 : (i 0).val < 4096 := (i 0).isLt
  have hi1 : (i 1).val < 325 := (i 1).isLt
  obtain ⟨t, ht⟩ := idx_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 325 ≤ (i 1).val ∧ (i 1).val < win0_1.index t (1 : Fin 2) * 325 + 325; omega

/-- After the run the result array is `pairDots` of the argument array as launched. -/
theorem final (c : Dev nD) :
    (dats m 0 c).arrAt 1 cfg0.N = pairDots (m ((c : Thread nD τ).loc main_arg0)) :=
  (dats m 0 c).arrAt_eq_of_cover 1 (pairDots (V m c main_arg0)) (fun t _ => flushed_eq m c t) cover

/-- Every weakly fair execution of the idealized kernel terminates with its result at `pairDots` of the argument,
    the argument unchanged. -/
theorem run : θ_run defs (onTc (τ := τ) (main (F := Ideal))) ⟨m, fun _ => 0, ρ⟩ fun r => ∀ c : Dev nD,
      r.2.mem ((c : Thread nD τ).loc main_v0) = pairDots (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.PairValue

end
-- ==== Proof.RefFun.lean ====
/-
  The reference as one pure function of its argument: the two tables of pair indices; the take
  (a negative index wrapped by 26, the range test 0 ≤ index ≤ 25, the gather of field rows, the fill
  value where the test fails); the product of the two takes summed over the embedding axis.
-/
import proofs.«147158_g12421045420591_cont_fleet_442_14_alg».proof.Proof.Gen.ReferenceIdeal

noncomputable section

namespace Cert.ReferenceIdeal.HandRun

open Cert.ReferenceIdeal Cert.ReferenceIdeal.Gen Idealize.ShloMosaic

variable {F : FTy → Type} [FloatOps F]

/-- The first fields' table and the second fields' table, as arrays. -/
def rowTable : IVec S325 32 := fun i => lit0 (S325.rowMajor i)
def colTable : IVec S325 32 := fun i => lit1 (S325.rowMajor i)

/-- The take's start indices: a negative entry wrapped by 26, as a column. -/
def takeIdx (tbl : IVec S325 32) : IVec S325x1 32 :=
  broadcastInDim S325x1 ![0] bcast_S325_S325x1_0
    (select (cmpi .slt tbl (broadcastInDim S325 ![] bcast_S_S325 (constantI S_ 32 0#32)))
      (addi tbl (broadcastInDim S325 ![] bcast_S_S325 (constantI S_ 32 26#32))) tbl)

/-- The take's range test per table entry: 0 ≤ index ≤ 25. -/
def takeOk (idx : IVec S325x1 32) : IVec S325 1 :=
  Host.reduce IntOp.andi
    (andi (cmpi .sge idx (broadcastInDim S325x1 ![] bcast_S_S325x1 (constantI S_ 32 0#32)))
      (cmpi .sle idx (broadcastInDim S325x1 ![0, 1] bcast_S1x1_S325x1_0_1
        (broadcastInDim S1x1 ![1] bcast_S1_S1x1_1 (constantI S1 32 25#32)))))
    (constantI S_ 1 1#1) reducesTo_S325x1_S325_d1 h_S_

/-- The take: the gathered field rows where the range test holds, the fill value elsewhere. -/
def take (x : FVec F S4096x26x128 .f32) (tbl : IVec S325 32) : FVec F S4096x325x128 .f32 :=
  select (broadcastInDim S4096x325x128 ![1] bcast_S325_S4096x325x128_1 (takeOk (takeIdx tbl)))
    (Host.gather gather_S4096x26x128_S325x1_S4096x325x128_02_1_n_n_1_1_40961128 x (takeIdx tbl))
    (broadcastInDim S4096x325x128 ![] bcast_S_S4096x325x128 (constant S_ .f32 0x7FC00000#32))

/-- The reference's result as one function of its argument. -/
def out (x : FVec F S4096x26x128 .f32) : FVec F S4096x325 .f32 :=
  Host.reduceAdd (mulf (take x rowTable) (take x colTable)) (constant S_ .f32 0x00000000#32)
    reducesTo_S4096x325x128_S4096x325_d2 h_S_

end Cert.ReferenceIdeal.HandRun

end
-- ==== Proof.RefRun.lean ====
/-
  The reference program's run.  Its @main is a straight line of 51 host operations once the two calls
  of the outlined take are written out at their call sites: the two tables of pair indices, then per
  table the take (a negative index wrapped by 26, the range test 0 ≤ index ≤ 25, the gather of field
  rows, the fill where the test fails), then the product and the sum over the embedding axis.  Every
  weakly fair execution ends with the result array at that composition applied to the argument.
-/
import proofs.«147158_g12421045420591_cont_fleet_442_14_alg».proof.Proof.RefFun
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls of the take written out. -/
abbrev ops : List (HloOp τ sig (Elt F)) :=
  [ nullary main_c (fun i => lit0 (S325.rowMajor i)),
    nullary main_c_0 (fun i => lit1 (S325.rowMajor i)),
    TRef.nullary main_call0.c (constantI S_ 32 0#32),
    TRef.unary main_call0.c main_call0.v0 (broadcastInDim S325 ![] bcast_S_S325),
    TRef.binary (.of main_c) main_call0.v0 main_call0.v1 (cmpi .slt),
    TRef.nullary main_call0.c_0 (constantI S_ 32 26#32),
    TRef.unary main_call0.c_0 main_call0.v2 (broadcastInDim S325 ![] bcast_S_S325),
    TRef.binary (.of main_c) main_call0.v2 main_call0.v3 addi,
    TRef.ternary main_call0.v1 main_call0.v3 (.of main_c) main_call0.call0.v0 select,
    TRef.unary main_call0.call0.v0 main_call0.v5 (broadcastInDim S325x1 ![0] bcast_S325_S325x1_0),
    TRef.nullary main_call0.c_1 (constantI S1 32 25#32),
    TRef.nullary main_call0.c_2 (constantI S_ 32 0#32),
    TRef.unary main_call0.c_2 main_call0.v6 (broadcastInDim S325x1 ![] bcast_S_S325x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S325x1 ![0, 1] bcast_S1x1_S325x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S325x1_S325_d1 h_S_),
    TRef.binary (.of main_arg0) main_call0.v5 main_call0.v13 (fun x i => Host.gather gather_S4096x26x128_S325x1_S4096x325x128_02_1_n_n_1_1_40961128 x i),
    TRef.unary main_call0.v12 main_call0.v14 (broadcastInDim S4096x325x128 ![1] bcast_S325_S4096x325x128_1),
    TRef.nullary main_call0.cst (constant S_ .f32 0x7FC00000#32),
    TRef.unary main_call0.cst main_call0.v15 (broadcastInDim S4096x325x128 ![] bcast_S_S4096x325x128),
    TRef.ternary main_call0.v14 main_call0.v13 main_call0.v15 main_call0.v16 select,
    TRef.nullary main_call1.c (constantI S_ 32 0#32),
    TRef.unary main_call1.c main_call1.v0 (broadcastInDim S325 ![] bcast_S_S325),
    TRef.binary (.of main_c_0) main_call1.v0 main_call1.v1 (cmpi .slt),
    TRef.nullary main_call1.c_0 (constantI S_ 32 26#32),
    TRef.unary main_call1.c_0 main_call1.v2 (broadcastInDim S325 ![] bcast_S_S325),
    TRef.binary (.of main_c_0) main_call1.v2 main_call1.v3 addi,
    TRef.ternary main_call1.v1 main_call1.v3 (.of main_c_0) main_call1.call0.v0 select,
    TRef.unary main_call1.call0.v0 main_call1.v5 (broadcastInDim S325x1 ![0] bcast_S325_S325x1_0),
    TRef.nullary main_call1.c_1 (constantI S1 32 25#32),
    TRef.nullary main_call1.c_2 (constantI S_ 32 0#32),
    TRef.unary main_call1.c_2 main_call1.v6 (broadcastInDim S325x1 ![] bcast_S_S325x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S325x1 ![0, 1] bcast_S1x1_S325x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S325x1_S325_d1 h_S_),
    TRef.binary (.of main_arg0) main_call1.v5 main_call1.v13 (fun x i => Host.gather gather_S4096x26x128_S325x1_S4096x325x128_02_1_n_n_1_1_40961128 x i),
    TRef.unary main_call1.v12 main_call1.v14 (broadcastInDim S4096x325x128 ![1] bcast_S325_S4096x325x128_1),
    TRef.nullary main_call1.cst (constant S_ .f32 0x7FC00000#32),
    TRef.unary main_call1.cst main_call1.v15 (broadcastInDim S4096x325x128 ![] bcast_S_S4096x325x128),
    TRef.ternary main_call1.v14 main_call1.v13 main_call1.v15 main_call1.v16 select,
    binary main_v0 main_v1 main_v2 (mulf : (⟨S4096x325x128, .f32⟩ : BufTy).Contents (Elt F) → (⟨S4096x325x128, .f32⟩ : BufTy).Contents (Elt F) → (⟨S4096x325x128, .f32⟩ : BufTy).Contents (Elt F)),
    nullary main_cst (constant S_ .f32 0x00000000#32),
    binary main_v2 main_cst main_v3 ((fun x v => Host.reduceAdd x v reducesTo_S4096x325x128_S4096x325_d2 h_S_) : (⟨S4096x325x128, .f32⟩ : BufTy).Contents (Elt F) → (⟨S_, .f32⟩ : BufTy).Contents (Elt F) → (⟨S4096x325, .f32⟩ : BufTy).Contents (Elt F)) ]

set_option maxRecDepth 2048 in
/-- @main is that straight line: the outlined functions unfolded at their calls. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..,
    binary_bufs_sub .., nullary_bufs_sub .., binary_bufs_sub ..⟩

attribute [local irreducible] Host.reduce Host.gather Host.reduceAdd broadcastInDim select cmpi addi andi mulf constant constantI in
set_option maxRecDepth 8192 in
set_option maxHeartbeats 1000000 in
/-- The operations' composition at the result buffer is `out` of the argument. -/
theorem out_eq (V : Valuation τ sig (Elt F)) :
    after ops V (main_v3 : DevRef τ sig) = out (V (main_arg0 : DevRef τ sig)) := by
  unfold out take takeOk takeIdx rowTable colTable
  after_results_simp
  rfl

set_option maxRecDepth 8192 in
theorem arg0_eq (V : Valuation τ sig (Elt F)) :
    after ops V (main_arg0 : DevRef τ sig) = V (main_arg0 : DevRef τ sig) := by
  after_results_simp

/-- Every weakly fair execution of the reference terminates with its result at `out` of the argument as launched,
    and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = out (m ((c.tc : Thread nD τ).loc main_arg0))
      ∧ r.2.mem ((c.tc : Thread nD τ).loc main_arg0) = m ((c.tc : Thread nD τ).loc main_arg0) :=
  (θ_run defs _ _).mono (fun _ h c => ⟨(h c main_v3).trans (out_eq _), (h c main_arg0).trans (arg0_eq _)⟩)
    (run_seq scopedRefs_eq scopedSems_eq defs main (fun _ => ops) main_eq (fun _ => ops_sub) m ρ)

end Cert.ReferenceIdeal.HandRun

end
-- ==== Proof.RefValue.lean ====
/-
  The reference's function, read entry by entry.  Both index tables hold field numbers 0 … 25 — entry p
  of the first is rowOf p, of the second colOf p — so the take wraps nothing, its range test holds at
  every entry, and it reads x[b, rowOf p, d] (respectively x[b, colOf p, d]).  The sum over the
  embedding axis from zero is then the inner product of the two field rows: `pairDots`.
-/
import proofs.«147158_g12421045420591_cont_fleet_442_14_alg».proof.Proof.RefFun
import proofs.«147158_g12421045420591_cont_fleet_442_14_alg».proof.Proof.PairSpec
import Idealize.ShloMosaic.PureOps.Ideal.Laws
import Idealize.ShloMosaic.Lib.ValueIdx
import Idealize.ShloMosaic.PureOps.Reduce

noncomputable section

namespace Cert.ReferenceIdeal.PairValue

open Cert.ReferenceIdeal Cert.ReferenceIdeal.Gen Cert.ReferenceIdeal.HandRun Idealize.ShloMosaic
open Idealize.ShloMosaic.ValueIdx PairIndex

variable {F : FTy → Type} [FloatOps F]

/-! ## The gather of field rows -/

/-- A field number read as a signed start index and clamped to the 26 fields is itself. -/
theorem small_index : ∀ n : Fin 26, min (BitVec.ofNat 32 n.val).toInt.toNat 25 = n.val := by decide

local notation "GD" => gather_S4096x26x128_S325x1_S4096x325x128_02_1_n_n_1_1_40961128

/-- The gather at (b, p, e), when start index p is the field number n: the array at (b, n, e). -/
theorem gather_apply (x : FVec F S4096x26x128 .f32) (idx : IVec S325x1 32) (b : Fin 4096) (p : Fin 325) (e : Fin 128)
    (n : Fin 26) (h : idx (ix2 p (0 : Fin 1)) = BitVec.ofNat 32 n.val) :
    Host.gather GD x idx (ix3 b p e) = x (ix3 b n e) := by
  unfold Host.gather
  congr 1
  funext a; apply Fin.ext
  match a with
  | ⟨0, _⟩ =>
    show GatherDims.start GD (ix3 b p e) idx 0 + GatherDims.batchCoord GD (ix3 b p e) 0 + GatherDims.offCoord GD (ix3 b p e) 0 = b.val
    have hs : GatherDims.start GD (ix3 b p e) idx 0 = 0 := by unfold GatherDims.start; exact dif_neg (by decide)
    have hb : GatherDims.batchCoord GD (ix3 b p e) 0 = 0 := GatherDims.batchCoord_eq_zero _ _ _ (by decide)
    have ho : GatherDims.offCoord GD (ix3 b p e) 0 = b.val := by unfold GatherDims.offCoord; rw [dif_pos (by decide)]; rfl
    omega
  | ⟨1, _⟩ =>
    show GatherDims.start GD (ix3 b p e) idx 1 + GatherDims.batchCoord GD (ix3 b p e) 1 + GatherDims.offCoord GD (ix3 b p e) 1 = n.val
    have hb : GatherDims.batchCoord GD (ix3 b p e) 1 = 0 := GatherDims.batchCoord_eq_zero _ _ _ (by decide)
    have ho : GatherDims.offCoord GD (ix3 b p e) 1 = 0 := GatherDims.offCoord_eq_zero _ _ _ (by decide)
    have hs : GatherDims.start GD (ix3 b p e) idx 1 = n.val := by
      unfold GatherDims.start
      rw [dif_pos (by decide)]
      have hsi : GatherDims.siIdx GD (ix3 b p e) ⟨List.idxOf 1 (GatherDims.startIndexMap GD), by decide⟩ = ix2 p (0 : Fin 1) := by
        funext a'; apply Fin.ext
        match a' with
        | ⟨0, _⟩ => rfl
        | ⟨1, _⟩ => rfl
      show min (idx (GatherDims.siIdx GD (ix3 b p e) ⟨List.idxOf 1 (GatherDims.startIndexMap GD), _⟩)).toInt.toNat (26 - 1) = n.val
      rw [hsi, h]
      exact small_index n
    omega
  | ⟨2, _⟩ =>
    show GatherDims.start GD (ix3 b p e) idx 2 + GatherDims.batchCoord GD (ix3 b p e) 2 + GatherDims.offCoord GD (ix3 b p e) 2 = e.val
    have hs : GatherDims.start GD (ix3 b p e) idx 2 = 0 := by unfold GatherDims.start; exact dif_neg (by decide)
    have hb : GatherDims.batchCoord GD (ix3 b p e) 2 = 0 := GatherDims.batchCoord_eq_zero _ _ _ (by decide)
    have ho : GatherDims.offCoord GD (ix3 b p e) 2 = e.val := by unfold GatherDims.offCoord; rw [dif_pos (by decide)]; rfl
    omega

/-! ## The tables: start indices and range tests -/

/-- Entry p of the first table is field number rowOf p, of the second colOf p (the 325 entries compared). -/
theorem lit0_row : ∀ p : Fin 325, lit0 p = BitVec.ofNat 32 (rowOf p).val := by decide +kernel
theorem lit1_col : ∀ p : Fin 325, lit1 p = BitVec.ofNat 32 (colOf p).val := by decide +kernel

theorem rowTable_apply (p : Fin 325) : rowTable (ix1 p) = BitVec.ofNat 32 (rowOf p).val := by
  have e : (S325.rowMajor (ix1 p) : Fin 325) = p := Fin.ext (by rw [Shape.rowMajor_val_one])
  exact (congrArg lit0 e).trans (lit0_row p)

theorem colTable_apply (p : Fin 325) : colTable (ix1 p) = BitVec.ofNat 32 (colOf p).val := by
  have e : (S325.rowMajor (ix1 p) : Fin 325) = p := Fin.ext (by rw [Shape.rowMajor_val_one])
  exact (congrArg lit1 e).trans (lit1_col p)

/-- A field number is not negative, so the take's wrap by 26 leaves it alone. -/
theorem wrap_none : ∀ n : Fin 26, Scalar.select (IntOp.cmpi .slt (BitVec.ofNat 32 n.val) 0#32)
    (IntOp.addi (BitVec.ofNat 32 n.val) 26#32) (BitVec.ofNat 32 n.val) = BitVec.ofNat 32 n.val := by decide

/-- A field number passes the take's range test 0 ≤ index ≤ 25. -/
theorem range_ok : ∀ n : Fin 26, IntOp.andi (IntOp.cmpi .sge (BitVec.ofNat 32 n.val) 0#32)
    (IntOp.cmpi .sle (BitVec.ofNat 32 n.val) 25#32) = 1#1 := by decide

/-- A table kept as a column reads, at (p, 0), its entry p. -/
theorem col_bcast (v : IVec S325 32) (p : Fin 325) :
    broadcastInDim S325x1 ![0] bcast_S325_S325x1_0 v (ix2 p (0 : Fin 1)) = v (ix1 p) := by
  show v _ = v _
  congr 1
  funext a; apply Fin.ext
  match a with
  | ⟨0, _⟩ => rfl

/-- The start index of entry p, for a table whose entry p is the field number n: n itself. -/
theorem takeIdx_apply (tbl : IVec S325 32) (p : Fin 325) (n : Fin 26) (h : tbl (ix1 p) = BitVec.ofNat 32 n.val) :
    takeIdx tbl (ix2 p (0 : Fin 1)) = BitVec.ofNat 32 n.val := by
  unfold HandRun.takeIdx
  rw [col_bcast]
  show Scalar.select (IntOp.cmpi .slt (tbl (ix1 p)) 0#32) (IntOp.addi (tbl (ix1 p)) 26#32) (tbl (ix1 p)) = _
  rw [h]
  exact wrap_none n

/-- A left fold by `and` from 1 over flags that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    have e : IntOp.andi (1#1 : BitVec 1) 1#1 = 1#1 := by decide
    rw [e]
    exact foldl_andi_one f l fun n hn => h n (List.mem_cons_of_mem _ hn)

/-- The range test of a column of start indices that are all field numbers holds at every entry. -/
theorem takeOk_one (idx : IVec S325x1 32)
    (hidx : ∀ p : Fin 325, ∃ n : Fin 26, idx (ix2 p (0 : Fin 1)) = BitVec.ofNat 32 n.val) (j : S325.Idx) :
    takeOk idx j = 1#1 := by
  unfold takeOk
  rw [Host.reduce_eq_foldl]
  refine foldl_andi_one _ _ fun i _ => ?_
  obtain ⟨p, q, rfl⟩ : ∃ (p : Fin 325) (q : Fin 1), i = ix2 p q := ⟨i 0, i 1, eq_ix2 i⟩
  have hq : q = 0 := Subsingleton.elim _ _
  subst hq
  obtain ⟨n, hn⟩ := hidx p
  show IntOp.andi (IntOp.cmpi .sge (idx (ix2 p 0)) 0#32) (IntOp.cmpi .sle (idx (ix2 p 0)) 25#32) = 1#1
  rw [hn]
  exact range_ok n

theorem idx_row (p : Fin 325) : takeIdx rowTable (ix2 p (0 : Fin 1)) = BitVec.ofNat 32 (rowOf p).val :=
  takeIdx_apply rowTable p (rowOf p) (rowTable_apply p)
theorem idx_col (p : Fin 325) : takeIdx colTable (ix2 p (0 : Fin 1)) = BitVec.ofNat 32 (colOf p).val :=
  takeIdx_apply colTable p (colOf p) (colTable_apply p)
theorem ok_row (p : Fin 325) : takeOk (takeIdx rowTable) (ix1 p) = 1#1 :=
  takeOk_one _ (fun p => ⟨rowOf p, idx_row p⟩) _
theorem ok_col (p : Fin 325) : takeOk (takeIdx colTable) (ix1 p) = 1#1 :=
  takeOk_one _ (fun p => ⟨colOf p, idx_col p⟩) _

/-! ## The take and the sum -/

/-- A per-entry flag laid along the pair axis of the [4096, 325, 128] array reads, at (b, p, e), entry p. -/
theorem flag_bcast (mk : IVec S325 1) (b : Fin 4096) (p : Fin 325) (e : Fin 128) :
    broadcastInDim S4096x325x128 ![1] bcast_S325_S4096x325x128_1 mk (ix3 b p e) = mk (ix1 p) := by
  show mk _ = mk _
  congr 1
  funext a; apply Fin.ext
  match a with
  | ⟨0, _⟩ => rfl

/-- The take by the first table reads field rowOf p. -/
theorem take_row (x : FVec F S4096x26x128 .f32) (b : Fin 4096) (p : Fin 325) (e : Fin 128) :
    take x rowTable (ix3 b p e) = x (ix3 b (rowOf p) e) := by
  have hm : broadcastInDim S4096x325x128 ![1] bcast_S325_S4096x325x128_1 (takeOk (takeIdx rowTable)) (ix3 b p e) = 1#1 :=
    (flag_bcast _ b p e).trans (ok_row p)
  unfold take
  rw [select_apply, hm, select_one]
  exact gather_apply x _ b p e (rowOf p) (idx_row p)

/-- The take by the second table reads field colOf p. -/
theorem take_col (x : FVec F S4096x26x128 .f32) (b : Fin 4096) (p : Fin 325) (e : Fin 128) :
    take x colTable (ix3 b p e) = x (ix3 b (colOf p) e) := by
  have hm : broadcastInDim S4096x325x128 ![1] bcast_S325_S4096x325x128_1 (takeOk (takeIdx colTable)) (ix3 b p e) = 1#1 :=
    (flag_bcast _ b p e).trans (ok_col p)
  unfold take
  rw [select_apply, hm, select_one]
  exact gather_apply x _ b p e (colOf p) (idx_col p)

/-- Over the extended reals the reference's entry (b, p) is the inner product of field rows rowOf p and colOf p of row b. -/
theorem out_apply (x : FVec Ideal S4096x26x128 .f32) (b : Fin 4096) (p : Fin 325) :
    out x (ix2 b p) = ∑ d : Fin 128, x (ix3 b (rowOf p) d) * x (ix3 b (colOf p) d) := by
  have hR : S4096x325x128.Reduces [2] S4096x325 := by decide
  unfold out Host.reduceAdd
  rw [Ideal.hostReduceAdd_def]
  refine (Ideal.hostReduceAdd_single reducesTo_S4096x325x128_S4096x325_d2 hR _ _ (ix2 b p)).trans ?_
  show Ideal.ofBits .f32 0x00000000#32 + (∑ d : Fin 128, mulf (take x rowTable) (take x colTable) (hR.lift (ix2 b p) d)) = _
  rw [Ideal.ofBits_zero_f32, zero_add]
  refine Finset.sum_congr rfl fun d _ => ?_
  have hl : hR.lift (ix2 b p) d = ix3 b p d := by
    funext a; apply Fin.ext
    match a with
    | ⟨0, _⟩ => rfl
    | ⟨1, _⟩ => rfl
    | ⟨2, _⟩ => rfl
  rw [hl, mulf_apply, take_row, take_col]

/-- The reference's function over the extended reals is `pairDots`. -/
theorem out_eq (x : FVec Ideal S4096x26x128 .f32) : out x = pairDots x := by
  funext i
  obtain ⟨b, p, rfl⟩ : ∃ (b : Fin 4096) (p : Fin 325), i = ix2 b p := ⟨i 0, i 1, eq_ix2 i⟩
  exact (out_apply x b p).trans (pairDots_ix2 x b p).symm

end Cert.ReferenceIdeal.PairValue

end
-- ==== Proof.lean ====
/-
  Pairwise inner products of 26 field embeddings.  For x : [4096, 26, 128] both programs compute the
  [4096, 325] array whose entry (b, p) is Σ_d x[b, i, d] · x[b, j, d], where (i, j), i < j, is the p-th
  pair in row-major order (`pairDots`).

  The kernel takes x in eight blocks of 512 rows.  Each block is handled in four chunks of 128 rows:
  the chunk's batched product with itself over the embedding axis, from a zero accumulator, is the Gram
  array g[b, i, j]; its strictly upper bands g[:, k, k+1:], k = 0 … 24, laid side by side, are the 325
  columns.  Over the extended reals the product into zero is the plain sum over d, and column p lies in
  band rowOf p at position colOf p - rowOf p - 1.

  The reference gathers the field rows x[:, rowOf p, :] and x[:, colOf p, :] through two constant index
  tables (all entries are field numbers 0 … 25, so the index wrap and the range test of the take change
  nothing), multiplies them and sums over d starting from zero.

  Both sums are the same finite sum of the same products, so no appeal to finiteness of x is needed.
  The idealization rewrote no operation, so there is nothing to preserve.
-/
import proofs.«147158_g12421045420591_cont_fleet_442_14_alg».proof.Defs
import proofs.«147158_g12421045420591_cont_fleet_442_14_alg».proof.Proof.Gen.Kernel
import proofs.«147158_g12421045420591_cont_fleet_442_14_alg».proof.Proof.Gen.Kernel.Frame
import proofs.«147158_g12421045420591_cont_fleet_442_14_alg».proof.Proof.Gen.KernelIdeal
import proofs.«147158_g12421045420591_cont_fleet_442_14_alg».proof.Proof.Gen.KernelIdeal.Frame
import proofs.«147158_g12421045420591_cont_fleet_442_14_alg».proof.Proof.Gen.ReferenceIdeal
import proofs.«147158_g12421045420591_cont_fleet_442_14_alg».proof.Proof.Gen.Pre_finite_inputs
import proofs.«147158_g12421045420591_cont_fleet_442_14_alg».proof.Proof.KernelValue
import proofs.«147158_g12421045420591_cont_fleet_442_14_alg».proof.Proof.RefRun
import proofs.«147158_g12421045420591_cont_fleet_442_14_alg».proof.Proof.RefValue
import Idealize.ShloMosaic.Adequacy
import Idealize.ShloMosaic.Init

noncomputable section

namespace Cert.Proof

open Idealize.ShloMosaic Idealize.ShloMosaic.TcCoe Idealize.SL.Sem PairIndex

/-- The word-level kernel runs and leaves x as it was. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves x as it was: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- From memories that agree on x, the kernel ends with its result at `pairDots x` and the reference with its
    result at its own function of x, which over the extended reals is `pairDots x` as well. -/
theorem algebraic : Cert.algebraic_KernelIdeal_ReferenceIdeal := by
  intro m ρ m' ρ' _ hagree
  refine ⟨fun c => pairDots (m ((c.tc : Thread Cert.KernelIdeal.nD Cert.KernelIdeal.τ).loc Cert.KernelIdeal.main_arg0)),
    Cert.KernelIdeal.PairValue.run m ρ, ?_⟩
  refine (θ_run Cert.ReferenceIdeal.defs _ _).mono (fun _ h c => ⟨(h c).1.trans ?_, (h c).2⟩)
    (Cert.ReferenceIdeal.HandRun.run (F := Ideal) m' ρ')
  rw [hagree c]
  exact Cert.ReferenceIdeal.PairValue.out_eq _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
